-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S40000 : Shape := ⟨1, ![40000]⟩
abbrev S50 : Shape := ⟨1, ![50]⟩
abbrev S16000000 : Shape := ⟨1, ![16000000]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S40000 : S_.BroadcastsInDim S40000 (![] : Fin 0 → Fin S40000.rank)
  reducesTo_S40000_S_d0 : S40000.ReducesTo [0] S_
  bcast_S_S50 : S_.BroadcastsInDim S50 (![] : Fin 0 → Fin S50.rank)
  reducesTo_S50_S_d0 : S50.ReducesTo [0] S_
  bcast_S_S16000000 : S_.BroadcastsInDim S16000000 (![] : Fin 0 → Fin S16000000.rank)
  reducesTo_S16000000_S_d0 : S16000000.ReducesTo [0] S_

variable [Facts]

def fn_part1 {F : FTy → Type} [FloatOps F] (main_arg3 : IVec S500000 32) (main_arg6 : IVec S16000000 32) (main_v13 : IVec S_ 1) (main_v15 : IVec S500000 1) (main_c_5 : IVec S_ 1) : IVec S_ 1 :=
  let main_v16 : IVec S_ 1 := (fun x v => Host.reduce IntOp.andi x v reducesTo_S500000_S_d0 h_S_) main_v15 main_c_5
  let main_v17 : IVec S_ 1 := andi main_v13 main_v16
  let main_c_6 : IVec S_ 32 := constantI S_ 32 50#32
  let main_v18 : IVec S500000 32 := broadcastInDim S500000 ![] bcast_S_S500000 main_c_6
  let main_v19 : IVec S500000 1 := cmpi .slt main_arg3 main_v18
  let main_c_7 : IVec S_ 1 := constantI S_ 1 1#1
  let main_v20 : IVec S_ 1 := (fun x v => Host.reduce IntOp.andi x v reducesTo_S500000_S_d0 h_S_) main_v19 main_c_7
  let main_v21 : IVec S_ 1 := andi main_v17 main_v20
  let main_c_8 : IVec S_ 32 := constantI S_ 32 0#32
  let main_v22 : IVec S16000000 32 := broadcastInDim S16000000 ![] bcast_S_S16000000 main_c_8
  let main_v23 : IVec S16000000 1 := cmpi .sge main_arg6 main_v22
  let main_c_9 : IVec S_ 1 := constantI S_ 1 1#1
  let main_v24 : IVec S_ 1 := (fun x v => Host.reduce IntOp.andi x v reducesTo_S16000000_S_d0 h_S_) main_v23 main_c_9
  let main_v25 : IVec S_ 1 := andi main_v21 main_v24
  let main_c_10 : IVec S_ 32 := constantI S_ 32 16#32
  let main_v26 : IVec S16000000 32 := broadcastInDim S16000000 ![] bcast_S_S16000000 main_c_10
  let main_v27 : IVec S16000000 1 := cmpi .slt main_arg6 main_v26
  let main_c_11 : IVec S_ 1 := constantI S_ 1 1#1
  let main_v28 : IVec S_ 1 := (fun x v => Host.reduce IntOp.andi x v reducesTo_S16000000_S_d0 h_S_) main_v27 main_c_11
  let main_v29 : IVec S_ 1 := andi main_v25 main_v28
  main_v29

def fn {F : FTy → Type} [FloatOps F] (main_arg0 : FVec F S500000 .f32) (main_arg1 : FVec F S40000 .f32) (main_arg2 : FVec F S50 .f32) (main_arg3 : IVec S500000 32) (main_arg4 : IVec S16000000 32) (main_arg5 : IVec S16000000 32) (main_arg6 : IVec S16000000 32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S40000 .f32 := Host.absf main_arg1
  let main_cst_0 : FVec F S_ .f32 := constant S_ .f32 0x7F800000#32
  let main_v5 : FVec F S40000 .f32 := broadcastInDim S40000 ![] bcast_S_S40000 main_cst_0
  let main_v6 : IVec S40000 1 := cmpf .olt main_v4 main_v5
  let main_c_1 : IVec S_ 1 := constantI S_ 1 1#1
  let main_v7 : IVec S_ 1 := (fun x v => Host.reduce IntOp.andi x v reducesTo_S40000_S_d0 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_c_4 : IVec S_ 32 := constantI S_ 32 0#32
  let main_v14 : IVec S500000 32 := broadcastInDim S500000 ![] bcast_S_S500000 main_c_4
  let main_v15 : IVec S500000 1 := cmpi .sge main_arg3 main_v14
  let main_c_5 : IVec S_ 1 := constantI S_ 1 1#1
  fn_part1 (F := F) main_arg3 main_arg6 main_v13 main_v15 main_c_5
-- ==== Kernel.lean ====
abbrev S500000 : Shape := ⟨1, ![500000]⟩
abbrev S40000 : Shape := ⟨1, ![40000]⟩
abbrev S50 : Shape := ⟨1, ![50]⟩
abbrev S16000000 : Shape := ⟨1, ![16000000]⟩
abbrev S_ : Shape := ⟨0, ![]⟩
abbrev S16000000x1 : Shape := ⟨2, ![16000000, 1]⟩
abbrev S50x800 : Shape := ⟨2, ![50, 800]⟩
abbrev S800x50 : Shape := ⟨2, ![800, 50]⟩
abbrev S5120 : Shape := ⟨1, ![5120]⟩
abbrev S1024 : Shape := ⟨1, ![1024]⟩
abbrev S1024x800 : Shape := ⟨2, ![1024, 800]⟩
abbrev S1024x1 : Shape := ⟨2, ![1024, 1]⟩
abbrev S1024x50 : Shape := ⟨2, ![1024, 50]⟩
abbrev S500000x1 : Shape := ⟨2, ![500000, 1]⟩

abbrev nBuf : Space → Nat
  | .hbm => 63
  | .vmem => 8
  | .smem => 0
  | _ => 0

abbrev bufTy : (tb : Table) → Fin (tcTables nBuf tb) → BufTy
  | .hbm, ⟨0, _⟩ => ⟨S500000, .f32⟩
  | .hbm, ⟨1, _⟩ => ⟨S40000, .f32⟩
  | .hbm, ⟨2, _⟩ => ⟨S50, .f32⟩
  | .hbm, ⟨3, _⟩ => ⟨S500000, .i32⟩
  | .hbm, ⟨4, _⟩ => ⟨S16000000, .i32⟩
  | .hbm, ⟨5, _⟩ => ⟨S16000000, .i32⟩
  | .hbm, ⟨6, _⟩ => ⟨S16000000, .i32⟩
  | .hbm, ⟨7, _⟩ => ⟨S_, .i32⟩
  | .hbm, ⟨8, _⟩ => ⟨S16000000, .i32⟩
  | .hbm, ⟨9, _⟩ => ⟨S16000000, .i1⟩
  | .hbm, ⟨10, _⟩ => ⟨S_, .i32⟩
  | .hbm, ⟨11, _⟩ => ⟨S16000000, .i32⟩
  | .hbm, ⟨12, _⟩ => ⟨S16000000, .i32⟩
  | .hbm, ⟨13, _⟩ => ⟨S16000000, .i32⟩
  | .hbm, ⟨14, _⟩ => ⟨S16000000x1, .i32⟩
  | .hbm, ⟨15, _⟩ => ⟨S16000000, .i32⟩
  | .hbm, ⟨16, _⟩ => ⟨S_, .i32⟩
  | .hbm, ⟨17, _⟩ => ⟨S16000000, .i32⟩
  | .hbm, ⟨18, _⟩ => ⟨S16000000, .i1⟩
  | .hbm, ⟨19, _⟩ => ⟨S_, .i32⟩
  | .hbm, ⟨20, _⟩ => ⟨S16000000, .i32⟩
  | .hbm, ⟨21, _⟩ => ⟨S16000000, .i32⟩
  | .hbm, ⟨22, _⟩ => ⟨S16000000, .i32⟩
  | .hbm, ⟨23, _⟩ => ⟨S16000000x1, .i32⟩
  | .hbm, ⟨24, _⟩ => ⟨S16000000, .i32⟩
  | .hbm, ⟨25, _⟩ => ⟨S_, .i32⟩
  | .hbm, ⟨26, _⟩ => ⟨S16000000, .i32⟩
  | .hbm, ⟨27, _⟩ => ⟨S16000000, .i1⟩
  | .hbm, ⟨28, _⟩ => ⟨S_, .i32⟩
  | .hbm, ⟨29, _⟩ => ⟨S16000000, .i32⟩
  | .hbm, ⟨30, _⟩ => ⟨S16000000, .i32⟩
  | .hbm, ⟨31, _⟩ => ⟨S16000000, .i32⟩
  | .hbm, ⟨32, _⟩ => ⟨S16000000x1, .i32⟩
  | .hbm, ⟨33, _⟩ => ⟨S16000000, .f32⟩
  | .hbm, ⟨34, _⟩ => ⟨S_, .i32⟩
  | .hbm, ⟨35, _⟩ => ⟨S16000000, .i32⟩
  | .hbm, ⟨36, _⟩ => ⟨S16000000, .i32⟩
  | .hbm, ⟨37, _⟩ => ⟨S16000000, .i32⟩
  | .hbm, ⟨38, _⟩ => ⟨S_, .i32⟩
  | .hbm, ⟨39, _⟩ => ⟨S16000000, .i32⟩
  | .hbm, ⟨40, _⟩ => ⟨S16000000, .i32⟩
  | .hbm, ⟨41, _⟩ => ⟨S16000000, .i32⟩
  | .hbm, ⟨42, _⟩ => ⟨S50x800, .f32⟩
  | .hbm, ⟨43, _⟩ => ⟨S800x50, .f32⟩
  | .hbm, ⟨44, _⟩ => ⟨S800x50, .bf16⟩
  | .hbm, ⟨45, _⟩ => ⟨S800x50, .f32⟩
  | .hbm, ⟨46, _⟩ => ⟨S800x50, .f32⟩
  | .hbm, ⟨47, _⟩ => ⟨S800x50, .bf16⟩
  | .hbm, ⟨48, _⟩ => ⟨S16000000, .f32⟩
  | .hbm, ⟨49, _⟩ => ⟨S_, .f32⟩
  | .hbm, ⟨50, _⟩ => ⟨S500000, .f32⟩
  | .hbm, ⟨51, _⟩ => ⟨S16000000x1, .i32⟩
  | .hbm, ⟨52, _⟩ => ⟨S500000, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000, .f32⟩
  | .hbm, ⟨62, _⟩ => ⟨S500000, .f32⟩
  | .local _ .vmem, ⟨0, _⟩ => ⟨S5120, .i32⟩
  | .local _ .vmem, ⟨1, _⟩ => ⟨S5120, .i32⟩
  | .local _ .vmem, ⟨2, _⟩ => ⟨S5120, .f32⟩
  | .local _ .vmem, ⟨3, _⟩ => ⟨S5120, .f32⟩
  | .local _ .vmem, ⟨4, _⟩ => ⟨S800x50, .bf16⟩
  | .local _ .vmem, ⟨5, _⟩ => ⟨S800x50, .bf16⟩
  | .local _ .vmem, ⟨6, _⟩ => ⟨S5120, .f32⟩
  | .local _ .vmem, ⟨7, _⟩ => ⟨S5120, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![3125], ![false]⟩

def k0_mult1 : BitVec 32 :=
  let c0_i32 : BitVec 32 := 0#32
  let c1024_i32 : BitVec 32 := 1024#32
  let v0 : BitVec 32 := Scalar.muli c0_i32 c1024_i32
  v0
def k0_off1 (c0_i32 : BitVec 32) : Fin 1 → Nat :=
  let c1024_i32 : BitVec 32 := 1024#32
  let v0 : BitVec 32 := Scalar.muli c0_i32 c1024_i32
  let v1 : BitVec 32 := v0
  let v2 : Index := Scalar.indexCast v1
  ![v2.toNat]
def k0_mult2 : BitVec 32 :=
  let c1_i32 : BitVec 32 := 1#32
  let c1024_i32_5 : BitVec 32 := 1024#32
  let v37 : BitVec 32 := Scalar.muli c1_i32 c1024_i32_5
  v37
def k0_mult3 : BitVec 32 :=
  let c2_i32 : BitVec 32 := 2#32
  let c1024_i32_15 : BitVec 32 := 1024#32
  let v74 : BitVec 32 := Scalar.muli c2_i32 c1024_i32_15
  v74
def k0_mult4 : BitVec 32 :=
  let c3_i32 : BitVec 32 := 3#32
  let c1024_i32_25 : BitVec 32 := 1024#32
  let v111 : BitVec 32 := Scalar.muli c3_i32 c1024_i32_25
  v111
def k0_mult5 : BitVec 32 :=
  let c4_i32 : BitVec 32 := 4#32
  let c1024_i32_35 : BitVec 32 := 1024#32
  let v148 : BitVec 32 := Scalar.muli c4_i32 c1024_i32_35
  v148
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S5120 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S800x50 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S800x50 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16000000 : S_.BroadcastsInDim S16000000 (![] : Fin 0 → Fin S16000000.rank)
  bcast_S16000000_S16000000x1_0 : S16000000.BroadcastsInDim S16000000x1 (![0] : Fin 1 → Fin S16000000x1.rank)
  shapeCasts_S40000_S50x800 : S40000.ShapeCasts S50x800
  transposes_S50x800_S800x50_1_0 : S50x800.Transposes [1, 0] S800x50
  bitsLt_bf16_f32 : FTy.bits .bf16 < FTy.bits .f32
  h_S1024 : 0 < S1024.numel
  shapeCasts_S1024_S1024 : S1024.ShapeCasts S1024
  iota_S1024x800_d1_w32 : S1024x800.Iotas .tc 32 [1]
  shapeCasts_S1024_S1024x1 : S1024.ShapeCasts S1024x1
  broadcasts_S1024x1_S1024x800 : S1024x1.Broadcasts S1024x800
  natLt_1_32 : 1 < 32
  inb_S800x50_S800x50_0_0 : ∀ a, (![0, 0] : Fin 2 → Nat) a + S800x50.size a ≤ S800x50.size a
  h_S800x50 : 0 < S800x50.numel
  shapeCasts_S800x50_S800x50 : S800x50.ShapeCasts S800x50
  iota_S1024x50_d1_w32 : S1024x50.Iotas .tc 32 [1]
  broadcasts_S1024x1_S1024x50 : S1024x1.Broadcasts S1024x50
  reduces_S1024x50_S1024 : S1024x50.Reduces [1] S1024
  bcast_S_S500000 : S_.BroadcastsInDim S500000 (![] : Fin 0 → Fin S500000.rank)
  bcast_S500000_S500000x1_0 : S500000.BroadcastsInDim S500000x1 (![0] : Fin 1 → Fin S500000x1.rank)
  gather_S500000_S16000000x1_S16000000_n_0_n_n_0_1_1_wf : GatherDims.WF S500000 S16000000x1 S16000000 [] [0] [] [0] [] 1 ![1]
  dot_S1024x800_S800x50_S1024x50_1_0_0_1_n_n_wf : DotDims.WF S1024x800 S800x50 S1024x50 [1] [0] [0] [1] [] []
  scatter_S500000_S16000000x1_S16000000_n_0_0_1_wf : ScatterDims.WF S500000 S16000000x1 S16000000 [] [0] [0] 1
  gather_S50_S500000x1_S500000_n_0_n_n_0_1_1_wf : GatherDims.WF S50 S500000x1 S500000 [] [0] [] [0] [] 1 ![1]
  hrank0 : 0 < grid0.rank
  k0_mult1_dvd : 1024 ∣ k0_mult1.toNat
  k0_off1_inb : ∀ (r : Fin 5), ∀ a, (k0_off1 (BitVec.ofNat 32 r.val)) a + S1024.size a ≤ S5120.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120.size a ≤ S16000000.size a
  hwx0_0 : ∀ i : grid0.Coords, EltTy.bits .i32 = 32 ∨ (Rect.block (s := S16000000) S5120.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120.size a ≤ S16000000.size a
  hwx0_1 : ∀ i : grid0.Coords, EltTy.bits .f32 = 32 ∨ (Rect.block (s := S16000000) S5120.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S800x50.size a ≤ S800x50.size a
  hwx0_2 : ∀ i : grid0.Coords, EltTy.bits .bf16 = 32 ∨ (Rect.block (s := S800x50) S800x50.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S800x50.size a ≤ S800x50.size a
  hwx0_3 : ∀ i : grid0.Coords, EltTy.bits .bf16 = 32 ∨ (Rect.block (s := S800x50) S800x50.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5120.size a ≤ S16000000.size a
  hwx0_4 : ∀ i : grid0.Coords, EltTy.bits .f32 = 32 ∨ (Rect.block (s := S16000000) S5120.size (cc0_transform_4 i) (hinb0_4 i)).WholeWords (EltTy.packing .f32)

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def dot_S1024x800_S800x50_S1024x50_1_0_0_1_n_n : DotDims S1024x800 S800x50 S1024x50 where
  lhsContracting := [1]
  rhsContracting := [0]
  lhsNonContracting := [0]
  rhsNonContracting := [1]
  lhsBatch := []
  rhsBatch := []
  wf := dot_S1024x800_S800x50_S1024x50_1_0_0_1_n_n_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S50_S500000x1_S500000_n_0_n_n_0_1_1 : GatherDims S50 S500000x1 S500000 where
  offsetDims := []
  collapsedSliceDims := [0]
  operandBatchingDims := []
  startIndicesBatchingDims := []
  startIndexMap := [0]
  indexVectorDim := 1
  sliceSizes := ![1]
  wf := gather_S50_S500000x1_S500000_n_0_n_n_0_1_1_wf

abbrev win0_0 : Pipeline.Window sig grid0 :=
  Pipeline.Window.ofSpec (Memref.whole main_v26) S5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5120.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S800x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S800x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S5120.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000 : Shape := ⟨1, ![500000]⟩
abbrev S40000 : Shape := ⟨1, ![40000]⟩
abbrev S50 : Shape := ⟨1, ![50]⟩
abbrev S16000000 : Shape := ⟨1, ![16000000]⟩
abbrev S_ : Shape := ⟨0, ![]⟩
abbrev S16000000x1 : Shape := ⟨2, ![16000000, 1]⟩
abbrev S500000x1 : Shape := ⟨2, ![500000, 1]⟩

abbrev nBuf : Space → Nat
  | .hbm => 66
  | .vmem => 0
  | .smem => 0
  | _ => 0

abbrev bufTy : (tb : Table) → Fin (tcTables nBuf tb) → BufTy
  | .hbm, ⟨0, _⟩ => ⟨S500000, .f32⟩
  | .hbm, ⟨1, _⟩ => ⟨S40000, .f32⟩
  | .hbm, ⟨2, _⟩ => ⟨S50, .f32⟩
  | .hbm, ⟨3, _⟩ => ⟨S500000, .i32⟩
  | .hbm, ⟨4, _⟩ => ⟨S16000000, .i32⟩
  | .hbm, ⟨5, _⟩ => ⟨S16000000, .i32⟩
  | .hbm, ⟨6, _⟩ => ⟨S16000000, .i32⟩
  | .hbm, ⟨7, _⟩ => ⟨S_, .i32⟩
  | .hbm, ⟨8, _⟩ => ⟨S16000000, .i32⟩
  | .hbm, ⟨9, _⟩ => ⟨S16000000, .i1⟩
  | .hbm, ⟨10, _⟩ => ⟨S_, .i32⟩
  | .hbm, ⟨11, _⟩ => ⟨S16000000, .i32⟩
  | .hbm, ⟨12, _⟩ => ⟨S16000000, .i32⟩
  | .hbm, ⟨13, _⟩ => ⟨S16000000, .i32⟩
  | .hbm, ⟨14, _⟩ => ⟨S16000000x1, .i32⟩
  | .hbm, ⟨15, _⟩ => ⟨S16000000, .i32⟩
  | .hbm, ⟨16, _⟩ => ⟨S_, .i32⟩
  | .hbm, ⟨17, _⟩ => ⟨S16000000, .i32⟩
  | .hbm, ⟨18, _⟩ => ⟨S16000000, .i1⟩
  | .hbm, ⟨19, _⟩ => ⟨S_, .i32⟩
  | .hbm, ⟨20, _⟩ => ⟨S16000000, .i32⟩
  | .hbm, ⟨21, _⟩ => ⟨S16000000, .i32⟩
  | .hbm, ⟨22, _⟩ => ⟨S16000000, .i32⟩
  | .hbm, ⟨23, _⟩ => ⟨S16000000x1, .i32⟩
  | .hbm, ⟨24, _⟩ => ⟨S16000000, .i32⟩
  | .hbm, ⟨25, _⟩ => ⟨S_, .i32⟩
  | .hbm, ⟨26, _⟩ => ⟨S16000000, .i32⟩
  | .hbm, ⟨27, _⟩ => ⟨S16000000, .i32⟩
  | .hbm, ⟨28, _⟩ => ⟨S16000000, .i32⟩
  | .hbm, ⟨29, _⟩ => ⟨S_, .i32⟩
  | .hbm, ⟨30, _⟩ => ⟨S16000000, .i32⟩
  | .hbm, ⟨31, _⟩ => ⟨S16000000, .i32⟩
  | .hbm, ⟨32, _⟩ => ⟨S16000000, .i32⟩
  | .hbm, ⟨33, _⟩ => ⟨S_, .i32⟩
  | .hbm, ⟨34, _⟩ => ⟨S16000000, .i32⟩
  | .hbm, ⟨35, _⟩ => ⟨S16000000, .i1⟩
  | .hbm, ⟨36, _⟩ => ⟨S_, .i32⟩
  | .hbm, ⟨37, _⟩ => ⟨S16000000, .i32⟩
  | .hbm, ⟨38, _⟩ => ⟨S16000000, .i32⟩
  | .hbm, ⟨39, _⟩ => ⟨S16000000, .i32⟩
  | .hbm, ⟨40, _⟩ => ⟨S16000000x1, .i32⟩
  | .hbm, ⟨41, _⟩ => ⟨S16000000, .f32⟩
  | .hbm, ⟨42, _⟩ => ⟨S_, .i32⟩
  | .hbm, ⟨43, _⟩ => ⟨S16000000, .i32⟩
  | .hbm, ⟨44, _⟩ => ⟨S16000000, .i1⟩
  | .hbm, ⟨45, _⟩ => ⟨S_, .i32⟩
  | .hbm, ⟨46, _⟩ => ⟨S16000000, .i32⟩
  | .hbm, ⟨47, _⟩ => ⟨S16000000, .i32⟩
  | .hbm, ⟨48, _⟩ => ⟨S16000000, .i32⟩
  | .hbm, ⟨49, _⟩ => ⟨S16000000x1, .i32⟩
  | .hbm, ⟨50, _⟩ => ⟨S16000000, .f32⟩
  | .hbm, ⟨51, _⟩ => ⟨S16000000, .f32⟩
  | .hbm, ⟨52, _⟩ => ⟨S_, .f32⟩
  | .hbm, ⟨53, _⟩ => ⟨S500000, .f32⟩
  | .hbm, ⟨54, _⟩ => ⟨S16000000x1, .i32⟩
  | .hbm, ⟨55, _⟩ => ⟨S500000, .f32⟩
  | .hbm, ⟨56, _⟩ => ⟨S_, .i32⟩
  | .hbm, ⟨57, _⟩ => ⟨S500000, .i32⟩
  | .hbm, ⟨58, _⟩ => ⟨S500000, .i1⟩
  | .hbm, ⟨59, _⟩ => ⟨S_, .i32⟩
  | .hbm, ⟨60, _⟩ => ⟨S500000, .i32⟩
  | .hbm, ⟨61, _⟩ => ⟨S500000, .i32⟩
  | .hbm, ⟨62, _⟩ => ⟨S500000, .i32⟩
  | .hbm, ⟨63, _⟩ => ⟨S500000x1, .i32⟩
  | .hbm, ⟨64, _⟩ => ⟨S500000, .f32⟩
  | .hbm, ⟨65, _⟩ => ⟨S500000, .f32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_c_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000 : S_.BroadcastsInDim S500000 (![] : Fin 0 → Fin S500000.rank)
  bcast_S500000_S500000x1_0 : S500000.BroadcastsInDim S500000x1 (![0] : Fin 1 → Fin S500000x1.rank)
  gather_S500000_S16000000x1_S16000000_n_0_n_n_0_1_1_wf : GatherDims.WF S500000 S16000000x1 S16000000 [] [0] [] [0] [] 1 ![1]
  gather_S40000_S16000000x1_S16000000_n_0_n_n_0_1_1_wf : GatherDims.WF S40000 S16000000x1 S16000000 [] [0] [] [0] [] 1 ![1]
  scatter_S500000_S16000000x1_S16000000_n_0_0_1_wf : ScatterDims.WF S500000 S16000000x1 S16000000 [] [0] [0] 1
  gather_S50_S500000x1_S500000_n_0_n_n_0_1_1_wf : GatherDims.WF S50 S500000x1 S500000 [] [0] [] [0] [] 1 ![1]

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def gather_S40000_S16000000x1_S16000000_n_0_n_n_0_1_1 : GatherDims S40000 S16000000x1 S16000000 where
  offsetDims := []
  collapsedSliceDims := [0]
  operandBatchingDims := []
  startIndicesBatchingDims := []
  startIndexMap := [0]
  indexVectorDim := 1
  sliceSizes := ![1]
  wf := gather_S40000_S16000000x1_S16000000_n_0_n_n_0_1_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S50_S500000x1_S500000_n_0_n_n_0_1_1 : GatherDims S50 S500000x1 S500000 where
  offsetDims := []
  collapsedSliceDims := [0]
  operandBatchingDims := []
  startIndicesBatchingDims := []
  startIndexMap := [0]
  indexVectorDim := 1
  sliceSizes := ![1]
  wf := gather_S50_S500000x1_S500000_n_0_n_n_0_1_1_wf

class Facts : Prop extends Facts₀ where

variable [Facts]
-- ==== Proof.Domain.lean ====
/-
  What the precondition says of the inputs. The precondition is a conjunction of seven universally quantified
  comparisons, each an `and`-reduction over a whole array: each of the three float inputs is finite (`|x| < +∞` at
  every entry), every label lies in `[0, 50)` and every property in `[0, 16)`, the integer ranges compared signed.
  Read at the one index of its rank-0 result, the conjunction splits, each reduction gives its comparison at every
  entry, and the comparisons read back as: every entry of the table is a real number, every label is below 50 and
  every property below 16 as natural numbers.
-/
import proofs.«413087_j81965155877382_3_alg».proof.Pre_finite_inputs
import Idealize.ShloMosaic.Lib.ReduceAll
import Idealize.ShloMosaic.Lib.WordArith
import Idealize.ShloMosaic.Lib.StableHlo.Predicate
import Idealize.ShloMosaic.PureOps.Ideal

noncomputable section

namespace Cert.Proof.Domain

open Idealize.ShloMosaic

variable [Cert.Pre_finite_inputs.Facts]

/-- The rank-0 shape has one index. -/
instance : Subsingleton Cert.Pre_finite_inputs.S_.Idx := ⟨fun a b => funext fun d => d.elim0⟩

/-- The pattern `0x7F800000` (sign 0, exponent all ones, fraction 0) denotes `+∞`. -/
theorem inf_bits : Ideal.ofBits .f32 0x7F800000#32 = (⊤ : EReal) := by
  simp [Ideal.ofBits, Ideal.ieee]

/-- An extended real whose absolute value `max x (-x)` is strictly below `+∞` is a real: at `⊥` and at `⊤` the
    absolute value is `⊤`. -/
theorem real_of_abs_lt (x : EReal)
    (h : Ideal.cmp .olt (max x (-x)) (Ideal.ofBits .f32 0x7F800000#32) = 1#1) : ∃ r : ℝ, x = (r : EReal) := by
  rw [inf_bits] at h
  unfold Ideal.cmp at h
  simp only [StableHlo.Predicate.ofBool_eq_one_iff, decide_eq_true_eq] at h
  induction x using EReal.rec with
  | bot => simp at h
  | coe r => exact ⟨r, rfl⟩
  | top => simp at h

/-- A word that is signed-nonnegative and signed-below `n < 2³¹` is below `n` as a natural number. -/
theorem word_lt (w : BitVec 32) (n : ℕ) (hn : n < 2 ^ 31) (h0 : IntOp.cmpi .sge w 0#32 = 1#1)
    (h1 : IntOp.cmpi .slt w (BitVec.ofNat 32 n) = 1#1) : w.toNat < n := by
  unfold IntOp.cmpi at h0 h1
  rw [StableHlo.Predicate.ofBool_eq_one_iff] at h0 h1
  exact WordArith.toNat_lt_of_zero_sle_of_slt_ofNat w n hn h0 h1

/-- THE PRECONDITION DECODED: the table's entries are reals, the labels are below 50, the properties below 16. -/
theorem of_pre (x : FVec Ideal Cert.Pre_finite_inputs.S500000 .f32) (W : FVec Ideal Cert.Pre_finite_inputs.S40000 .f32) (bias : FVec Ideal Cert.Pre_finite_inputs.S50 .f32)
    (label : IVec Cert.Pre_finite_inputs.S500000 32) (src dst prop : IVec Cert.Pre_finite_inputs.S16000000 32)
    (h : Cert.Pre_finite_inputs.fn (F := Ideal) x W bias label src dst prop = fun _ => 1#1) :
    (∀ i, ∃ r : ℝ, W i = (r : EReal)) ∧ (∀ i, (label i).toNat < 50) ∧ (∀ e, (prop e).toNat < 16) := by
  have e := congrFun h (fun d => d.elim0)
  dsimp only [Cert.Pre_finite_inputs.fn, Cert.Pre_finite_inputs.fn_part1] at e
  simp only [andi, IntOp.andi_eq_one] at e
  obtain ⟨⟨⟨⟨⟨⟨-, hW⟩, -⟩, hl0⟩, hl1⟩, hp0⟩, hp1⟩ := e
  refine ⟨fun i => ?_, fun i => ?_, fun j => ?_⟩
  · exact real_of_abs_lt (W i) (Host.reduce_andi_all _ _ _ _ _ hW i)
  · exact word_lt (label i) 50 (by decide) (Host.reduce_andi_all _ _ _ _ _ hl0 i) (Host.reduce_andi_all _ _ _ _ _ hl1 i)
  · exact word_lt (prop j) 16 (by decide) (Host.reduce_andi_all _ _ _ _ _ hp0 j) (Host.reduce_andi_all _ _ _ _ _ hp1 j)

end Cert.Proof.Domain

end
-- ==== Proof.Spec.lean ====
/-
  Both programs' host arithmetic as pure functions of the argument arrays. An edge `e` has endpoints `src e` and
  `dst e`. Its table row is the label of `src e`; its column is the label of `dst e` times 16 plus its property.
  The reference reads the weight at the flat index `(row * 50 + label of dst e) * 16 + property`; the kernel packs
  `row * 1024 + column` into one word. The message of an edge is that weight times the feature of `dst e`. Messages
  are summed into their `src` node, and the bias of the node's label is added.
-/
import proofs.«413087_j81965155877382_3_alg».proof.ReferenceIdeal
import Idealize.ShloMosaic.PureOps

noncomputable section

namespace Cert.Proof.Spec

open Idealize.ShloMosaic Cert.ReferenceIdeal

variable {F : FTy → Type} [FloatOps F] [Cert.ReferenceIdeal.Facts]
open Cert.ReferenceIdeal.Facts₀ Cert.ReferenceIdeal.Facts

/-- a vector of 16,000,000 positions into a table of n rows, negative positions wrapped by n, as a column of start
    indices -/
def wrapCol (n : BitVec 32) (idx : IVec S16000000 32) : IVec S16000000x1 32 :=
  broadcastInDim S16000000x1 ![0] bcast_S16000000_S16000000x1_0
    (select (cmpi .slt idx (broadcastInDim S16000000 ![] bcast_S_S16000000 (constantI S_ 32 0#32)))
      (addi idx (broadcastInDim S16000000 ![] bcast_S_S16000000 (constantI S_ 32 n))) idx)

/-- the label of each edge's endpoint `ends e` -/
def labelOf (label : IVec S500000 32) (ends : IVec S16000000 32) : IVec S16000000 32 :=
  Host.gather gather_S500000_S16000000x1_S16000000_n_0_n_n_0_1_1 label (wrapCol 500000#32 ends)

/-- the feature of each edge's endpoint -/
def featOf (x : FVec F S500000 .f32) (ends : IVec S16000000 32) : FVec F S16000000 .f32 :=
  Host.gather gather_S500000_S16000000x1_S16000000_n_0_n_n_0_1_1 x (wrapCol 500000#32 ends)

/-- the reference's flat weight index -/
def flatIdx (label : IVec S500000 32) (src dst prop : IVec S16000000 32) : IVec S16000000 32 :=
  addi (muli (addi (muli (labelOf label src) (broadcastInDim S16000000 ![] bcast_S_S16000000 (constantI S_ 32 50#32))) (labelOf label dst))
    (broadcastInDim S16000000 ![] bcast_S_S16000000 (constantI S_ 32 16#32))) prop

/-- the kernel's packed code -/
def codeOf (label : IVec S500000 32) (src dst prop : IVec S16000000 32) : IVec S16000000 32 :=
  addi (muli (labelOf label src) (broadcastInDim S16000000 ![] bcast_S_S16000000 (constantI S_ 32 1024#32)))
    (addi (muli (labelOf label dst) (broadcastInDim S16000000 ![] bcast_S_S16000000 (constantI S_ 32 16#32))) prop)

/-- the reference's messages -/
def refMsgs (x : FVec F S500000 .f32) (W : FVec F S40000 .f32) (label : IVec S500000 32) (src dst prop : IVec S16000000 32) : FVec F S16000000 .f32 :=
  mulf (Host.gather gather_S40000_S16000000x1_S16000000_n_0_n_n_0_1_1 W (wrapCol 40000#32 (flatIdx label src dst prop))) (featOf x dst)

/-- what both programs do with the messages: sum them into their source nodes, add each node's label's bias -/
def tail (bias : FVec F S50 .f32) (label : IVec S500000 32) (src : IVec S16000000 32) (msgs : FVec F S16000000 .f32) : FVec F S500000 .f32 :=
  addf (Host.scatterAdd scatter_S500000_S16000000x1_S16000000_n_0_0_1 (broadcastInDim S500000 ![] bcast_S_S500000 (constant S_ .f32 0x00000000#32))
      (broadcastInDim S16000000x1 ![0] bcast_S16000000_S16000000x1_0 src) msgs)
    (Host.gather gather_S50_S500000x1_S500000_n_0_n_n_0_1_1 bias (broadcastInDim S500000x1 ![0] bcast_S500000_S500000x1_0
      (select (cmpi .slt label (broadcastInDim S500000 ![] bcast_S_S500000 (constantI S_ 32 0#32)))
        (addi label (broadcastInDim S500000 ![] bcast_S_S500000 (constantI S_ 32 50#32))) label)))

end Cert.Proof.Spec

end
-- ==== Proof.PackedCode.lean ====
/-
  The packed edge code. An edge's two table coordinates, the label `a < 50` of its first endpoint and the
  column `k < 800` (second endpoint's label times 16 plus the property), travel as the one word `a * 1024 + k`.
  Because `k < 1024`, the word's low ten bits are `k` and the rest is `a`: an arithmetic shift right by ten
  gives back `a`, and masking with `1023` gives back `k`.
-/
import Idealize.ShloMosaic.PureOps.Float
import Idealize.ShloMosaic.Lib.StableHlo.Predicate

namespace Cert.Proof.PackedCode

open Idealize.ShloMosaic

/-- The packed word does not wrap: its value is `a * 1024 + (b * 16 + p)`. -/
theorem packed_toNat (a b p : BitVec 32) (ha : a.toNat < 50) (hb : b.toNat < 50) (hp : p.toNat < 16) :
    (IntOp.addi (IntOp.muli a 1024#32) (IntOp.addi (IntOp.muli b 16#32) p)).toNat
      = a.toNat * 1024 + (b.toNat * 16 + p.toNat) := by
  simp only [IntOp.addi, IntOp.muli, BitVec.toNat_add, BitVec.toNat_mul, BitVec.toNat_ofNat]
  omega

/-- The word `a * 1024 + k` with `k < 1024` is below 2³¹, so its arithmetic shift right by ten is the
    quotient by `2 ^ 10`, which is `a`. -/
theorem shift_packed (w : BitVec 32) (a k : ℕ) (ha : a < 50) (hk : k < 1024) (hw : w.toNat = a * 1024 + k) :
    IntOp.shrsi .vector w 10#32 = BitVec.ofNat 32 a := by
  have hm : w.msb = false := BitVec.msb_eq_false_iff_two_mul_lt.mpr (by omega)
  have h10 : (10#32 : BitVec 32).toNat < 32 := by decide
  unfold IntOp.shrsi
  rw [if_pos h10, BitVec.sshiftRight_eq', BitVec.sshiftRight_eq_of_msb_false hm]
  apply BitVec.eq_of_toNat_eq
  have h10' : (10#32 : BitVec 32).toNat = 10 := by decide
  rw [BitVec.toNat_ushiftRight, Nat.shiftRight_eq_div_pow, h10', BitVec.toNat_ofNat, hw]
  omega

/-- The low ten bits of `a * 1024 + k` with `k < 1024` are `k`: the mask `1023 = 2 ^ 10 - 1` is the
    remainder by `2 ^ 10`. -/
theorem mask_packed (w : BitVec 32) (a k : ℕ) (ha : a < 50) (hk : k < 1024) (hw : w.toNat = a * 1024 + k) :
    IntOp.andi w 1023#32 = BitVec.ofNat 32 k := by
  apply BitVec.eq_of_toNat_eq
  have h1023 : (1023#32 : BitVec 32).toNat = 2 ^ 10 - 1 := by decide
  unfold IntOp.andi
  rw [BitVec.toNat_and, h1023, Nat.and_two_pow_sub_one_eq_mod, BitVec.toNat_ofNat, hw]
  omega

/-- The reference's flat index does not wrap: its value is `(a * 50 + b) * 16 + p`. -/
theorem flat_toNat (a b p : BitVec 32) (ha : a.toNat < 50) (hb : b.toNat < 50) (hp : p.toNat < 16) :
    (IntOp.addi (IntOp.muli (IntOp.addi (IntOp.muli a 50#32) b) 16#32) p).toNat
      = (a.toNat * 50 + b.toNat) * 16 + p.toNat := by
  simp only [IntOp.addi, IntOp.muli, BitVec.toNat_add, BitVec.toNat_mul, BitVec.toNat_ofNat]
  omega

/-- a flat index already inside the table survives the wrap of negative indices and the signed clamp -/
theorem wrap_clamp (w : BitVec 32) (hw : w.toNat < 40000) :
    min (Scalar.select (IntOp.cmpi .slt w 0#32) (IntOp.addi w 40000#32) w).toInt.toNat (40000 - 1) = w.toNat := by
  have hneg : ¬ (IntOp.cmpi .slt w 0#32 = 1#1) := by
    rw [StableHlo.Predicate.slt_iff_toNat (by omega) (by decide)]
    simp
  have hsel : Scalar.select (IntOp.cmpi .slt w 0#32) (IntOp.addi w 40000#32) w = w := by
    unfold Scalar.select
    exact if_neg hneg
  rw [hsel, StableHlo.Predicate.toInt_eq_toNat_of_lt (by omega), Int.toNat_natCast]
  omega

end Cert.Proof.PackedCode
-- ==== Proof.RefValue.lean ====
/-
  The reference's value, read. Its result is the common tail (sum the messages into their source nodes, add the bias of
  each node's label) of its messages. Under labels below 50 and properties below 16, every edge `e` has a row
  `a < 50` (the label of its first endpoint) and a column `k = b * 16 + p < 800` (the label `b` of its second endpoint
  and its property `p`): the packed word `a * 1024 + k` shifts right by ten to `a` and masks with `1023` to `k`, and
  the reference's flat index `(a * 50 + b) * 16 + p = a * 800 + k` lies inside the table of 40000 weights, so neither the
  wrap of negative indices nor the clamp moves it: the message is the weight at `a * 800 + k` times the feature of the
  second endpoint.
-/
import proofs.«413087_j81965155877382_3_alg».proof.Proof.Spec
import proofs.«413087_j81965155877382_3_alg».proof.Proof.PackedCode
import proofs.«413087_j81965155877382_3_alg».proof.Proof.Gen.ReferenceIdeal.Run
import Idealize.ShloMosaic.Lib.StableHlo.Predicate
import Idealize.ShloMosaic.Lib.ValueIdx

noncomputable section

namespace Cert.Proof.RefValue

open Idealize.ShloMosaic Idealize.ShloMosaic.TcCoe Idealize.SL.Sem
open Idealize.ShloMosaic.ValueIdx Idealize.ShloMosaic.StableHlo.Predicate
open Cert.ReferenceIdeal

variable [Cert.ReferenceIdeal.Facts]

/-- the reference's result is the common tail of its messages -/
theorem res_eq {F : FTy → Type} [FloatOps F] (m : (ℓ : Loc nD τ sig) → Buf (Elt F) ℓ) (c : Dev nD) :
    Cert.ReferenceIdeal.Value.res_main_v45 (F := F) m c
      = Spec.tail (m ((c.tc : Thread nD τ).loc main_arg2)) (m ((c.tc : Thread nD τ).loc main_arg3))
          (m ((c.tc : Thread nD τ).loc main_arg4))
          (Spec.refMsgs (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))) := by
  unfold Cert.ReferenceIdeal.Value.res_main_v45
  rfl

/-- The rank-1 index at coordinate `p`, in its two spellings. -/
theorem ofFin_eq_ix1 {n : Nat} (p : Fin n) : Shape.Idx.ofFin p = ix1 p := by
  funext d
  match d with
  | ⟨0, _⟩ => rfl

theorem ix1_congr {n : Nat} (a b : Fin n) (h : a.val = b.val) : ix1 a = ix1 b := by
  rw [Fin.ext h]

/-- The column of wrapped start indices, at row `e`: the position itself, or the position plus `n` when negative. -/
theorem wrapCol_apply (n : BitVec 32) (idx : IVec S16000000 32) (e : Fin 16000000) :
    Spec.wrapCol n idx (ixP e)
      = Scalar.select (IntOp.cmpi .slt (idx (ix1 e)) 0#32) (IntOp.addi (idx (ix1 e)) n) (idx (ix1 e)) := by
  unfold Spec.wrapCol
  rw [bcast_col1, ofFin_eq_ix1]
  rfl

/-- The label of an edge's endpoint is the label of SOME node. -/
theorem labelOf_mem (label : IVec S500000 32) (ends : IVec S16000000 32) (e : Fin 16000000) :
    ∃ i, Spec.labelOf label ends (ix1 e) = label i :=
  ⟨_, (congrArg (Spec.labelOf label ends) (ofFin_eq_ix1 e).symm).trans
    (gather_take gather_S500000_S16000000x1_S16000000_n_0_n_n_0_1_1 rfl rfl rfl rfl label
      (Spec.wrapCol 500000#32 ends) e (by decide))⟩

/-- The packed code at an edge, word by word. -/
theorem codeOf_apply (label : IVec S500000 32) (src dst prop : IVec S16000000 32) (i : S16000000.Idx) :
    Spec.codeOf label src dst prop i
      = IntOp.addi (IntOp.muli (Spec.labelOf label src i) 1024#32)
          (IntOp.addi (IntOp.muli (Spec.labelOf label dst i) 16#32) (prop i)) := rfl

/-- The flat index at an edge, word by word. -/
theorem flatIdx_apply (label : IVec S500000 32) (src dst prop : IVec S16000000 32) (i : S16000000.Idx) :
    Spec.flatIdx label src dst prop i
      = IntOp.addi (IntOp.muli (IntOp.addi (IntOp.muli (Spec.labelOf label src i) 50#32) (Spec.labelOf label dst i)) 16#32)
          (prop i) := rfl

/-- THE INTEGER BRIDGE: under labels < 50 and properties < 16 every edge has a row a < 50 and a column k < 800 such that
    the packed code shifts to a and masks to k, and the reference's message is the weight at a*800 + k times the edge's
    feature -/
theorem edge_coords (label : IVec S500000 32) (src dst prop : IVec S16000000 32)
    (hlabel : ∀ i, (label i).toNat < 50) (hprop : ∀ e, (prop e).toNat < 16) (e : Fin 16000000) :
    ∃ (a : Fin 50) (k : Fin 800),
      IntOp.shrsi .vector (Spec.codeOf label src dst prop (ValueIdx.ix1 e)) 10#32 = BitVec.ofNat 32 a.val
      ∧ IntOp.andi (Spec.codeOf label src dst prop (ValueIdx.ix1 e)) 1023#32 = BitVec.ofNat 32 k.val
      ∧ ∀ (x : FVec Ideal S500000 .f32) (W : FVec Ideal S40000 .f32),
          Spec.refMsgs (F := Ideal) x W label src dst prop (ValueIdx.ix1 e)
            = W (ValueIdx.ix1 ⟨a.val * 800 + k.val, by have := a.isLt; have := k.isLt; omega⟩) * Spec.featOf x dst (ValueIdx.ix1 e) := by
  obtain ⟨ia, hia⟩ := labelOf_mem label src e
  obtain ⟨ib, hib⟩ := labelOf_mem label dst e
  have hA : (Spec.labelOf label src (ix1 e)).toNat < 50 := by rw [hia]; exact hlabel ia
  have hB : (Spec.labelOf label dst (ix1 e)).toNat < 50 := by rw [hib]; exact hlabel ib
  have hP : (prop (ix1 e)).toNat < 16 := hprop (ix1 e)
  have hcode : (Spec.codeOf label src dst prop (ix1 e)).toNat
      = (Spec.labelOf label src (ix1 e)).toNat * 1024
        + ((Spec.labelOf label dst (ix1 e)).toNat * 16 + (prop (ix1 e)).toNat) := by
    rw [codeOf_apply]; exact PackedCode.packed_toNat _ _ _ hA hB hP
  have hflat : (Spec.flatIdx label src dst prop (ix1 e)).toNat
      = ((Spec.labelOf label src (ix1 e)).toNat * 50 + (Spec.labelOf label dst (ix1 e)).toNat) * 16
        + (prop (ix1 e)).toNat := by
    rw [flatIdx_apply]; exact PackedCode.flat_toNat _ _ _ hA hB hP
  have hk : (Spec.labelOf label dst (ix1 e)).toNat * 16 + (prop (ix1 e)).toNat < 800 := by omega
  refine ⟨⟨_, hA⟩, ⟨_, hk⟩, ?_, ?_, ?_⟩
  · exact PackedCode.shift_packed _ _ _ hA (by omega) hcode
  · exact PackedCode.mask_packed _ _ _ hA (by omega) hcode
  · intro x W
    have hlt : (Spec.flatIdx label src dst prop (ix1 e)).toNat < 40000 := by rw [hflat]; omega
    have hwc := PackedCode.wrap_clamp _ hlt
    have hval : min (Spec.wrapCol 40000#32 (Spec.flatIdx label src dst prop) (ixP e)).toInt.toNat (40000 - 1)
        = (Spec.labelOf label src (ix1 e)).toNat * 800
          + ((Spec.labelOf label dst (ix1 e)).toNat * 16 + (prop (ix1 e)).toNat) := by
      rw [wrapCol_apply, hwc, hflat]; omega
    have hg : Host.gather gather_S40000_S16000000x1_S16000000_n_0_n_n_0_1_1 W
          (Spec.wrapCol 40000#32 (Spec.flatIdx label src dst prop)) (ix1 e)
        = W (ix1 ⟨(Spec.labelOf label src (ix1 e)).toNat * 800
          + ((Spec.labelOf label dst (ix1 e)).toNat * 16 + (prop (ix1 e)).toNat), by omega⟩) :=
      (congrArg (Host.gather gather_S40000_S16000000x1_S16000000_n_0_n_n_0_1_1 W
          (Spec.wrapCol 40000#32 (Spec.flatIdx label src dst prop))) (ofFin_eq_ix1 e).symm).trans
        ((gather_take gather_S40000_S16000000x1_S16000000_n_0_n_n_0_1_1 rfl rfl rfl rfl W
            (Spec.wrapCol 40000#32 (Spec.flatIdx label src dst prop)) e (by decide)).trans
          (congrArg W ((ofFin_eq_ix1 _).trans (ix1_congr _ _ hval))))
    show Host.gather gather_S40000_S16000000x1_S16000000_n_0_n_n_0_1_1 W
          (Spec.wrapCol 40000#32 (Spec.flatIdx label src dst prop)) (ix1 e) * Spec.featOf x dst (ix1 e) = _
    rw [hg]

end Cert.Proof.RefValue

end
-- ==== Proof.Chunk.lean ====
/-
  ONE CHUNK OF THE BODY, READ AT ONE ROW, AT THE EXACT-ARITHMETIC VALUES.

  A chunk is 1024 packed words with 1024 floats, and two `800 × 50` tables. A word `c` names a table row, its low ten
  bits `c &&& 1023`, and a lane, the rest `c >>> 10` (arithmetic shift). The body selects the row by a matrix product:
  it builds the `1024 × 800` matrix whose row `r` is `1` at the named column and `0` elsewhere (a comparison of the
  column number with the word, widened and converted), multiplies it with each table into a zero accumulator, and adds
  the two products. It then selects the lane the same way: a `1024 × 50` pattern that is `1` at the named lane is
  multiplied in and the 50 lanes are summed. The row's float multiplies the result.

  At the exact-arithmetic values a float is an extended real and every operation the textbook one, so the product at
  `(r, a)` is the sum over the 800 contracted positions of the entries' products, and the lane reduction the sum over
  the 50 lanes. On the extended reals `0 * x = 0` and `1 * x = x` at EVERY `x`, the infinities included (they are a
  commutative monoid with zero), and a finite sum whose terms but one are `0` is that term; so each selection is exact
  and NO entry of a table or of the floats need be finite:

      chunk (r) = (hi (k, a) + lo (k, a)) * x (r)     where the word at r has low bits k and shifted part a.

  The body does this five times over five spellings of one term; `chunk` below is that term over the cast words and
  floats, `chunk_apply` the reading above, and `pay_chunk0` … `pay_chunk4` say it of the five stored values (each is
  `chunk` by unfolding; a cast of a vector to its own shape is the identity).
-/
import proofs.«413087_j81965155877382_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Chunk

open Idealize.ShloMosaic Cert.KernelIdeal Cert.KernelIdeal.Gen Idealize.ShloMosaic.ValueIdx
open scoped BigOperators

/-! ## A vector as a column, and a column spread over lanes -/

/-- A vector of `a` entries viewed as one column reads, at `(i, u)`, entry `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a word vector made a column and spread over `n` lanes reads, at `(r, j)`, the vector's word `r`. -/
theorem spread_apply {n : ℕ} (w : IVec S1024 32) (h1 : S1024.ShapeCasts S1024x1)
    (h2 : S1024x1.Broadcasts ⟨2, ![1024, n]⟩) (r : Fin 1024) (j : Fin n) :
    broadcastTo ⟨2, ![1024, n]⟩ (shapeCast S1024x1 w h1) h2 (ix2 r j) = w (ix1 r) := by
  rw [broadcastTo_a1_ab_apply, shapeCast_a_a1_apply]

/-! ## A one-hot row -/

/-- The comparison bit of two equal words is `1`, of two different words `0`. -/
theorem cmpi_eq_of_eq {w : ℕ} {a b : BitVec w} (h : a = b) : IntOp.cmpi .eq a b = 1#1 := by
  subst h; simp [IntOp.cmpi]
theorem cmpi_eq_of_ne {w : ℕ} {a b : BitVec w} (h : a ≠ b) : IntOp.cmpi .eq a b = 0#1 := by
  show BitVec.ofBool (a == b) = 0#1
  rw [beq_eq_false_iff_ne.mpr h]; rfl

/-- Entry `(r, j)` of the table "lane number = the row's word", widened and converted: the extended real `1` where
    the row's word is `j`, `0` elsewhere. -/
theorem onehot_apply {n : ℕ} (w : IVec S1024 32) (hi : (⟨2, ![1024, n]⟩ : Shape).Iotas .tc 32 [1])
    (h1 : S1024.ShapeCasts S1024x1) (h2 : S1024x1.Broadcasts ⟨2, ![1024, n]⟩) (h3 : 1 < 32) (r : Fin 1024) (j : Fin n) :
    (sitofp .f32 (extui 32 (cmpi .eq (iota .tc ⟨2, ![1024, n]⟩ 32 [1] hi)
        (broadcastTo ⟨2, ![1024, n]⟩ (shapeCast S1024x1 w h1) h2)) h3) : FVec Ideal ⟨2, ![1024, n]⟩ .f32) (ix2 r j)
      = if BitVec.ofNat 32 j.val = w (ix1 r) then (1 : EReal) else 0 := by
  show FloatOps.sitofp (F := Ideal) .f32 ((IntOp.cmpi .eq (iota .tc ⟨2, ![1024, n]⟩ 32 [1] hi (ix2 r j))
      (broadcastTo ⟨2, ![1024, n]⟩ (shapeCast S1024x1 w h1) h2 (ix2 r j))).setWidth 32) = _
  rw [iota_single_apply, spread_apply]
  show ((((IntOp.cmpi .eq (BitVec.ofNat 32 j.val) (w (ix1 r))).setWidth 32).toInt : ℝ) : EReal) = _
  by_cases h : BitVec.ofNat 32 j.val = w (ix1 r)
  · rw [if_pos h, cmpi_eq_of_eq h]
    show (((1 : ℤ) : ℝ) : EReal) = 1
    rw [Int.cast_one, EReal.coe_one]
  · rw [if_neg h, cmpi_eq_of_ne h]
    show (((0 : ℤ) : ℝ) : EReal) = 0
    rw [Int.cast_zero, EReal.coe_zero]

/-! ## The product with a table: which entries meet at contraction position `c` -/

/-- Off its contracted axis the left operand's index reads the result's row … -/
theorem lhs_axis0 (j : S1024x50.Idx) (q : dot_S1024x800_S800x50_S1024x50_1_0_0_1_n_n.contr.Idx) :
    (dot_S1024x800_S800x50_S1024x50_1_0_0_1_n_n.lhsIdx j q 0).val = (j 0).val := by
  simp [DotDims.lhsIdx, dot_S1024x800_S800x50_S1024x50_1_0_0_1_n_n]; rfl
/-- … on it the contraction position; -/
theorem lhs_axis1 (j : S1024x50.Idx) (q : dot_S1024x800_S800x50_S1024x50_1_0_0_1_n_n.contr.Idx) :
    (dot_S1024x800_S800x50_S1024x50_1_0_0_1_n_n.lhsIdx j q 1).val = (q ⟨0, by decide⟩).val :=
  dot_S1024x800_S800x50_S1024x50_1_0_0_1_n_n.lhsIdx_val_of_single rfl j q
/-- the right operand's index reads the contraction position on its contracted axis … -/
theorem rhs_axis0 (j : S1024x50.Idx) (q : dot_S1024x800_S800x50_S1024x50_1_0_0_1_n_n.contr.Idx) :
    (dot_S1024x800_S800x50_S1024x50_1_0_0_1_n_n.rhsIdx j q 0).val = (q ⟨0, by decide⟩).val :=
  dot_S1024x800_S800x50_S1024x50_1_0_0_1_n_n.rhsIdx_val_of_single rfl j q
/-- … and the result's column off it. -/
theorem rhs_axis1 (j : S1024x50.Idx) (q : dot_S1024x800_S800x50_S1024x50_1_0_0_1_n_n.contr.Idx) :
    (dot_S1024x800_S800x50_S1024x50_1_0_0_1_n_n.rhsIdx j q 1).val = (j 1).val := by
  simp [DotDims.rhsIdx, dot_S1024x800_S800x50_S1024x50_1_0_0_1_n_n]; rfl

/-- The product of a `1024 × 800` matrix with an `800 × 50` table into the zero accumulator is, at `(r, a)`, the sum over
    the 800 contracted positions of the products of the entries. -/
theorem matmul_apply_sum (A : FVec Ideal S1024x800 .bf16) (B : FVec Ideal S800x50 .bf16) (r : Fin 1024) (a : Fin 50) :
    matmul dot_S1024x800_S800x50_S1024x50_1_0_0_1_n_n none A B (constant S1024x50 .f32 0x00000000#32) (ix2 r a)
      = ∑ c : Fin 800, A (ix2 r c) * B (ix2 c a) := by
  show FloatOps.matmul dot_S1024x800_S800x50_S1024x50_1_0_0_1_n_n none A B (constant S1024x50 .f32 0x00000000#32) (ix2 r a) = _
  rw [Ideal.matmul_constant_zero_apply,
    ← Equiv.sum_comp (contrEquiv1 dot_S1024x800_S800x50_S1024x50_1_0_0_1_n_n 800 rfl rfl).symm]
  refine Finset.sum_congr rfl fun c _ => ?_
  have hc := contrEquiv1_symm_val dot_S1024x800_S800x50_S1024x50_1_0_0_1_n_n 800 rfl rfl c
  have hl : dot_S1024x800_S800x50_S1024x50_1_0_0_1_n_n.lhsIdx (ix2 r a)
      ((contrEquiv1 dot_S1024x800_S800x50_S1024x50_1_0_0_1_n_n 800 rfl rfl).symm c) = ix2 r c := by
    funext ax; apply Fin.ext
    match ax with
    | ⟨0, _⟩ => exact lhs_axis0 _ _
    | ⟨1, _⟩ => exact (lhs_axis1 _ _).trans hc
  have hr : dot_S1024x800_S800x50_S1024x50_1_0_0_1_n_n.rhsIdx (ix2 r a)
      ((contrEquiv1 dot_S1024x800_S800x50_S1024x50_1_0_0_1_n_n 800 rfl rfl).symm c) = ix2 c a := by
    funext ax; apply Fin.ext
    match ax with
    | ⟨0, _⟩ => exact (rhs_axis0 _ _).trans hc
    | ⟨1, _⟩ => exact rhs_axis1 _ _
  rw [hl, hr]

/-- Against a row that is `1` at column `k` and `0` elsewhere the product selects the table's row `k`: every other term
    of the sum is `0 * x = 0` and the one left is `1 * x = x`, at every extended real `x`. -/
theorem matmul_onehot (A : FVec Ideal S1024x800 .bf16) (B : FVec Ideal S800x50 .bf16) (r : Fin 1024) (a : Fin 50) (k : Fin 800)
    (hA : ∀ c : Fin 800, A (ix2 r c) = if c = k then (1 : EReal) else 0) :
    matmul dot_S1024x800_S800x50_S1024x50_1_0_0_1_n_n none A B (constant S1024x50 .f32 0x00000000#32) (ix2 r a)
      = B (ix2 k a) := by
  rw [matmul_apply_sum, Finset.sum_eq_single k]
  · rw [hA k, if_pos rfl]; exact one_mul _
  · intro c _ hck; rw [hA c, if_neg hck]; exact zero_mul _
  · intro h; exact absurd (Finset.mem_univ k) h

/-! ## The lane sum against a one-hot row -/

/-- The index over row `r` with lane `l` put back is `(r, l)`. -/
theorem lift_row (h : S1024x50.Reduces [1] S1024) (r : Fin 1024) (l : Fin 50) : h.lift (ix1 r) l = ix2 r l := by
  funext ax; apply Fin.ext
  match ax with
  | ⟨0, _⟩ => rfl
  | ⟨1, _⟩ => rfl

/-- A `1024 × 50` array multiplied by a row pattern that is `1` at lane `a` and `0` elsewhere, then summed over the 50
    lanes, leaves the array's entry at lane `a`: the other terms are `x * 0 = 0`, the one left `x * 1 = x`, at every
    extended real `x`. -/
theorem lane_sum_onehot (src oh : FVec Ideal S1024x50 .f32) (h : S1024x50.Reduces [1] S1024) (hφ : FKind.Formats .f32)
    (hacc : (0x00000000#32 : BitVec 32) = FKind.add.neutral .f32 hφ) (r : Fin 1024) (a : Fin 50)
    (hoh : ∀ l : Fin 50, oh (ix2 r l) = if l = a then (1 : EReal) else 0) :
    multiReduction .add [1] S1024 (mulf src oh) 0x00000000#32 h hφ hacc (ix1 r) = src (ix2 r a) := by
  refine (Ideal.multiReduction_add_single (mulf src oh) 0x00000000#32 h hφ hacc (ix1 r)).trans ?_
  show ∑ l : Fin 50, mulf src oh (h.lift (ix1 r) l) = _
  rw [Finset.sum_eq_single a]
  · rw [lift_row]
    show src (ix2 r a) * oh (ix2 r a) = _
    rw [hoh a, if_pos rfl]; exact mul_one _
  · intro l _ hl
    rw [lift_row]
    show src (ix2 r l) * oh (ix2 r l) = 0
    rw [hoh l, if_neg hl]; exact mul_zero _
  · intro hn; exact absurd (Finset.mem_univ a) hn

/-! ## One chunk -/

/-- Two numbers below `2 ^ 32` are equal when their 32-bit words are. -/
theorem ofNat_inj_small {x y : ℕ} (hx : x < 2 ^ 32) (hy : y < 2 ^ 32) :
    BitVec.ofNat 32 x = BitVec.ofNat 32 y ↔ x = y := by
  constructor
  · intro h
    have e := congrArg BitVec.toNat h
    simp only [BitVec.toNat_ofNat] at e
    omega
  · rintro rfl; rfl

/-- The `1024 × 800` selection matrix of a vector of packed words: row `r` is `1` at the column the word's low ten bits
    name and `0` elsewhere. -/
def row800 (w : IVec S1024 32) : FVec Ideal S1024x800 .bf16 :=
  truncf .bf16 (sitofp .f32 (extui 32 (cmpi .eq (iota .tc S1024x800 32 [1] iota_S1024x800_d1_w32)
    (broadcastTo S1024x800 (shapeCast S1024x1 (andi w (broadcast S1024 1023#32)) shapeCasts_S1024_S1024x1)
      broadcasts_S1024x1_S1024x800)) natLt_1_32)) bitsLt_bf16_f32

/-- The `1024 × 50` lane pattern of the same vector: row `r` is `1` at the lane the word shifted right by ten
    (arithmetically) names and `0` elsewhere. -/
def lane50 (w : IVec S1024 32) : FVec Ideal S1024x50 .f32 :=
  sitofp .f32 (extui 32 (cmpi .eq (iota .tc S1024x50 32 [1] iota_S1024x50_d1_w32)
    (broadcastTo S1024x50 (shapeCast S1024x1 (shrsi w (broadcast S1024 10#32)) shapeCasts_S1024_S1024x1)
      broadcasts_S1024x1_S1024x50)) natLt_1_32)

/-- One chunk's value from its packed words `w`, its floats `x` and the two tables: the two selected table rows added,
    the named lane picked out by the lane sum, times the row's float. -/
def chunk (w : IVec S1024 32) (x : FVec Ideal S1024 .f32) (hi lo : Vec Ideal S800x50 .bf16) : FVec Ideal S1024 .f32 :=
  mulf (multiReduction .add [1] S1024
    (mulf (addf
        (matmul dot_S1024x800_S800x50_S1024x50_1_0_0_1_n_n none (row800 w)
          (shapeCast S800x50 hi shapeCasts_S800x50_S800x50 : FVec Ideal S800x50 .bf16) (constant S1024x50 .f32 0x00000000#32))
        (matmul dot_S1024x800_S800x50_S1024x50_1_0_0_1_n_n none (row800 w)
          (shapeCast S800x50 lo shapeCasts_S800x50_S800x50 : FVec Ideal S800x50 .bf16) (constant S1024x50 .f32 0x00000000#32)))
      (lane50 w))
    0x00000000#32 reduces_S1024x50_S1024 (.inl rfl) rfl) x

theorem row800_apply (w : IVec S1024 32) (r : Fin 1024) (k : Fin 800)
    (hm : IntOp.andi (w (ix1 r)) 1023#32 = BitVec.ofNat 32 k.val) (c : Fin 800) :
    row800 w (ix2 r c) = if c = k then (1 : EReal) else 0 := by
  refine (onehot_apply (n := 800) (andi w (broadcast S1024 1023#32)) iota_S1024x800_d1_w32 shapeCasts_S1024_S1024x1
    broadcasts_S1024x1_S1024x800 natLt_1_32 r c).trans ?_
  show (if BitVec.ofNat 32 c.val = IntOp.andi (w (ix1 r)) 1023#32 then (1 : EReal) else 0) = _
  rw [hm]
  exact if_congr ((ofNat_inj_small (by have := c.isLt; omega) (by have := k.isLt; omega)).trans Fin.val_inj) rfl rfl

theorem lane50_apply (w : IVec S1024 32) (r : Fin 1024) (a : Fin 50)
    (hs : IntOp.shrsi .vector (w (ix1 r)) 10#32 = BitVec.ofNat 32 a.val) (l : Fin 50) :
    lane50 w (ix2 r l) = if l = a then (1 : EReal) else 0 := by
  refine (onehot_apply (n := 50) (shrsi w (broadcast S1024 10#32)) iota_S1024x50_d1_w32 shapeCasts_S1024_S1024x1
    broadcasts_S1024x1_S1024x50 natLt_1_32 r l).trans ?_
  show (if BitVec.ofNat 32 l.val = IntOp.shrsi .vector (w (ix1 r)) 10#32 then (1 : EReal) else 0) = _
  rw [hs]
  exact if_congr ((ofNat_inj_small (by have := l.isLt; omega) (by have := a.isLt; omega)).trans Fin.val_inj) rfl rfl

/-- One chunk read at row `r`, whose word names table row `k` (low ten bits) and lane `a` (the rest): the two tables'
    entries at `(k, a)` added, times the row's float. No finiteness is asked of any entry. -/
theorem chunk_apply (w : IVec S1024 32) (x : FVec Ideal S1024 .f32) (hi lo : Vec Ideal S800x50 .bf16)
    (r : Fin 1024) (a : Fin 50) (k : Fin 800)
    (hs : IntOp.shrsi .vector (w (ix1 r)) 10#32 = BitVec.ofNat 32 a.val)
    (hm : IntOp.andi (w (ix1 r)) 1023#32 = BitVec.ofNat 32 k.val) :
    chunk w x hi lo (ix1 r) = (hi (ix2 k a) + lo (ix2 k a)) * x (ix1 r) := by
  unfold chunk
  rw [mulf_apply]
  refine congrArg (· * x (ix1 r)) ?_
  refine (lane_sum_onehot _ _ _ _ _ r a (lane50_apply w r a hs)).trans ?_
  rw [addf_apply, matmul_onehot _ _ r a k (row800_apply w r k hm), matmul_onehot _ _ r a k (row800_apply w r k hm),
    shapeCast_self, shapeCast_self]

/-! ## The five chunks of the body -/

theorem pay_chunk0 (v3 : Vec Ideal S1024 .i32) (v6 : Vec Ideal S1024 .f32) (v19 v22 : Vec Ideal S800x50 .bf16)
    (r : Fin 1024) (a : Fin 50) (k : Fin 800)
    (hs : IntOp.shrsi .vector (v3 (ix1 r)) 10#32 = BitVec.ofNat 32 a.val)
    (hm : IntOp.andi (v3 (ix1 r)) 1023#32 = BitVec.ofNat 32 k.val) :
    k0_pay2 (F := Ideal) v3 v6 v19 v22 (ix1 r) = (v19 (ix2 k a) + v22 (ix2 k a)) * v6 (ix1 r) := by
  have e : k0_pay2 (F := Ideal) v3 v6 v19 v22
      = chunk (shapeCast S1024 v3 shapeCasts_S1024_S1024) (shapeCast S1024 v6 shapeCasts_S1024_S1024) v19 v22 := rfl
  rw [e]
  refine (chunk_apply _ _ _ _ r a k ?_ ?_).trans ?_
  · rw [shapeCast_self]; exact hs
  · rw [shapeCast_self]; exact hm
  · rw [shapeCast_self]

theorem pay_chunk1 (v40 : Vec Ideal S1024 .i32) (v43 : Vec Ideal S1024 .f32) (v56 v59 : Vec Ideal S800x50 .bf16)
    (r : Fin 1024) (a : Fin 50) (k : Fin 800)
    (hs : IntOp.shrsi .vector (v40 (ix1 r)) 10#32 = BitVec.ofNat 32 a.val)
    (hm : IntOp.andi (v40 (ix1 r)) 1023#32 = BitVec.ofNat 32 k.val) :
    k0_pay5 (F := Ideal) (k0_pay3 (F := Ideal) v40) (k0_pay4 v43) v56 v59 (ix1 r) = (v56 (ix2 k a) + v59 (ix2 k a)) * v43 (ix1 r) := by
  have e : k0_pay5 (F := Ideal) (k0_pay3 (F := Ideal) v40) (k0_pay4 v43) v56 v59
      = chunk (shapeCast S1024 v40 shapeCasts_S1024_S1024) (shapeCast S1024 v43 shapeCasts_S1024_S1024) v56 v59 := rfl
  rw [e]
  refine (chunk_apply _ _ _ _ r a k ?_ ?_).trans ?_
  · rw [shapeCast_self]; exact hs
  · rw [shapeCast_self]; exact hm
  · rw [shapeCast_self]

theorem pay_chunk2 (v77 : Vec Ideal S1024 .i32) (v80 : Vec Ideal S1024 .f32) (v93 v96 : Vec Ideal S800x50 .bf16)
    (r : Fin 1024) (a : Fin 50) (k : Fin 800)
    (hs : IntOp.shrsi .vector (v77 (ix1 r)) 10#32 = BitVec.ofNat 32 a.val)
    (hm : IntOp.andi (v77 (ix1 r)) 1023#32 = BitVec.ofNat 32 k.val) :
    k0_pay10 (F := Ideal) (k0_pay7 v80) (k0_pay8 (F := Ideal) v77) (k0_pay9 (F := Ideal) v77) v93 v96 (ix1 r) = (v93 (ix2 k a) + v96 (ix2 k a)) * v80 (ix1 r) := by
  have e : k0_pay10 (F := Ideal) (k0_pay7 v80) (k0_pay8 (F := Ideal) v77) (k0_pay9 (F := Ideal) v77) v93 v96
      = chunk (shapeCast S1024 v77 shapeCasts_S1024_S1024) (shapeCast S1024 v80 shapeCasts_S1024_S1024) v93 v96 := rfl
  rw [e]
  refine (chunk_apply _ _ _ _ r a k ?_ ?_).trans ?_
  · rw [shapeCast_self]; exact hs
  · rw [shapeCast_self]; exact hm
  · rw [shapeCast_self]

theorem pay_chunk3 (v114 : Vec Ideal S1024 .i32) (v117 : Vec Ideal S1024 .f32) (v130 v133 : Vec Ideal S800x50 .bf16)
    (r : Fin 1024) (a : Fin 50) (k : Fin 800)
    (hs : IntOp.shrsi .vector (v114 (ix1 r)) 10#32 = BitVec.ofNat 32 a.val)
    (hm : IntOp.andi (v114 (ix1 r)) 1023#32 = BitVec.ofNat 32 k.val) :
    k0_pay16 (F := Ideal) (k0_pay12 v117) (k0_pay13 (F := Ideal) v114) (k0_pay14 (F := Ideal) v114) (k0_pay15 (F := Ideal) v114 v130) v133 (ix1 r) = (v130 (ix2 k a) + v133 (ix2 k a)) * v117 (ix1 r) := by
  have e : k0_pay16 (F := Ideal) (k0_pay12 v117) (k0_pay13 (F := Ideal) v114) (k0_pay14 (F := Ideal) v114) (k0_pay15 (F := Ideal) v114 v130) v133
      = chunk (shapeCast S1024 v114 shapeCasts_S1024_S1024) (shapeCast S1024 v117 shapeCasts_S1024_S1024) v130 v133 := rfl
  rw [e]
  refine (chunk_apply _ _ _ _ r a k ?_ ?_).trans ?_
  · rw [shapeCast_self]; exact hs
  · rw [shapeCast_self]; exact hm
  · rw [shapeCast_self]

theorem pay_chunk4 (v151 : Vec Ideal S1024 .i32) (v154 : Vec Ideal S1024 .f32) (v167 v170 : Vec Ideal S800x50 .bf16)
    (r : Fin 1024) (a : Fin 50) (k : Fin 800)
    (hs : IntOp.shrsi .vector (v151 (ix1 r)) 10#32 = BitVec.ofNat 32 a.val)
    (hm : IntOp.andi (v151 (ix1 r)) 1023#32 = BitVec.ofNat 32 k.val) :
    k0_pay1 (F := Ideal) (k0_pay17 v154) (k0_pay18 (F := Ideal) v151 v167 v170) (ix1 r) = (v167 (ix2 k a) + v170 (ix2 k a)) * v154 (ix1 r) := by
  have e : k0_pay1 (F := Ideal) (k0_pay17 v154) (k0_pay18 (F := Ideal) v151 v167 v170)
      = chunk (shapeCast S1024 v151 shapeCasts_S1024_S1024) (shapeCast S1024 v154 shapeCasts_S1024_S1024) v167 v170 := rfl
  rw [e]
  refine (chunk_apply _ _ _ _ r a k ?_ ?_).trans ?_
  · rw [shapeCast_self]; exact hs
  · rw [shapeCast_self]; exact hm
  · rw [shapeCast_self]

end Cert.KernelIdeal.Chunk

end
-- ==== Proof.BlockValue.lean ====
import proofs.«413087_j81965155877382_3_alg».proof.Proof.Gen.KernelIdeal.Frame
import Idealize.ShloMosaic.Lib.Pipeline.Value
import Idealize.ShloMosaic.Lib.ValueIdx
import proofs.«413087_j81965155877382_3_alg».proof.Proof.Chunk

set_option maxRecDepth 16384

noncomputable section

/-! The block one grid point writes back, index by index. The body cuts its block of 5120 edges into five
    chunks of 1024 and stores one result per chunk, so entry `n` of the block is row `n % 1024` of the chunk
    `n / 1024`; every chunk computes the same function of its own rows of the packed codes and of the gathered
    features and of the two whole weight tables. -/
namespace Cert.KernelIdeal.BlockValue

open Idealize.ShloMosaic Idealize.ShloMosaic.TcCoe Idealize.ShloMosaic.Tactic
open Idealize.SL Idealize.SL.Sem
open Cert.KernelIdeal Cert.KernelIdeal.Gen Idealize.ShloMosaic.ValueIdx

variable [Cert.KernelIdeal.Facts]

/-- The zero offsets of a whole-table load, however spelt. -/
theorem zero_off2 : (![0, 0] : Fin S800x50.rank → Nat) = fun _ => 0 := by
  funext a; match a with | ⟨0, _⟩ => rfl | ⟨1, _⟩ => rfl

/-- The chunk of 1024 consecutive entries from offset `o`. -/
abbrev chunkRect (o : Nat) (h : o + 1024 ≤ 5120) : Rect S5120 :=
  Rect.unit (s := S5120) ![o] ![1024] (Rect.inb₁ h)

/-- Row `r` of the chunk at offset `o` is entry `o + r` of the block. -/
theorem emb_chunk (o : Nat) (ho : o + 1024 ≤ 5120) (r : Fin 1024) (n : Fin 5120) (h : n.val = o + r.val) :
    (chunkRect o ho).emb (ix1 r) = ix1 n := by
  funext d
  match d with
  | ⟨0, _⟩ => exact Fin.ext (by show o + 1 * r.val = n.val; omega)

/-- A load of the chunk at offset `o`, at row `r`, reads entry `o + r`. -/
theorem ld_chunk {e : EltTy} (X : S5120.Idx → Elt Ideal e) (o : Nat) (ho : o + 1024 ≤ 5120) (r : Fin 1024) (n : Fin 5120)
    (h : n.val = o + r.val) : View.ld X (chunkRect o ho) (ix1 r) = X (ix1 n) :=
  congrArg X (emb_chunk o ho r n h)

/-- Entry `n` of the block lies outside the chunk at offset `o` when `n` is below `o` or at least `o + 1024`. -/
theorem not_mem_chunk (o : Nat) (ho : o + 1024 ≤ 5120) (n : Fin 5120) (h : n.val < o ∨ o + 1024 ≤ n.val) :
    (ix1 n : S5120.Idx) ∉ (chunkRect o ho).set := by
  rw [Rect.mem_set_unit]
  intro hm
  have := hm 0
  simp only [Matrix.cons_val_zero] at this
  have e : ((ix1 n : S5120.Idx) 0 : Nat) = n.val := rfl
  omega

/-- An entry outside the last store's rectangle reads what the earlier stores left. -/
theorem canon_skip (r : Rect S5120) (w : r.shape.Idx → Elt Ideal .f32) (L : List (View.Piece (Elt Ideal) S5120 .f32)) {y : S5120.Idx}
    (h : y ∉ r.set) : View.canon (Val := Elt Ideal) (⟨r, w⟩ :: L) y = View.canon L y :=
  View.canon_cons_of_not_mem ⟨r, w⟩ L h

/-! Which store an entry of the block reads: the five chunks tile the block, so entry `n` is row `n - o` of the one
    chunk `[o, o + 1024)` that holds it, whatever the five stored vectors are. -/

theorem pick4 (P4 P3 P2 P1 P0 : S1024.Idx → Elt Ideal .f32) (n : Fin 5120) (hlo : 4096 ≤ n.val) (hhi : n.val < 4096 + 1024) :
    View.canon (Val := Elt Ideal)
        [(⟨chunkRect 4096 (by decide), P4⟩ : View.Piece (Elt Ideal) S5120 .f32), ⟨chunkRect 3072 (by decide), P3⟩,
          ⟨chunkRect 2048 (by decide), P2⟩, ⟨chunkRect 1024 (by decide), P1⟩, ⟨chunkRect 0 (by decide), P0⟩] (ix1 n)
      = P4 (ix1 ⟨n.val - 4096, by omega⟩) := by
  have hr : n.val = 4096 + (⟨n.val - 4096, by omega⟩ : Fin 1024).val := by simp only []; omega

  refine (congrArg _ (emb_chunk 4096 (by decide) _ n hr).symm).trans ?_
  exact View.canon_cons_emb (chunkRect 4096 (by decide)) _ _ _

theorem pick3 (P4 P3 P2 P1 P0 : S1024.Idx → Elt Ideal .f32) (n : Fin 5120) (hlo : 3072 ≤ n.val) (hhi : n.val < 3072 + 1024) :
    View.canon (Val := Elt Ideal)
        [(⟨chunkRect 4096 (by decide), P4⟩ : View.Piece (Elt Ideal) S5120 .f32), ⟨chunkRect 3072 (by decide), P3⟩,
          ⟨chunkRect 2048 (by decide), P2⟩, ⟨chunkRect 1024 (by decide), P1⟩, ⟨chunkRect 0 (by decide), P0⟩] (ix1 n)
      = P3 (ix1 ⟨n.val - 3072, by omega⟩) := by
  have hr : n.val = 3072 + (⟨n.val - 3072, by omega⟩ : Fin 1024).val := by simp only []; omega
  refine (canon_skip (chunkRect 4096 (by decide)) _ _ (not_mem_chunk 4096 (by decide) n (by omega))).trans ?_
  refine (congrArg _ (emb_chunk 3072 (by decide) _ n hr).symm).trans ?_
  exact View.canon_cons_emb (chunkRect 3072 (by decide)) _ _ _

theorem pick2 (P4 P3 P2 P1 P0 : S1024.Idx → Elt Ideal .f32) (n : Fin 5120) (hlo : 2048 ≤ n.val) (hhi : n.val < 2048 + 1024) :
    View.canon (Val := Elt Ideal)
        [(⟨chunkRect 4096 (by decide), P4⟩ : View.Piece (Elt Ideal) S5120 .f32), ⟨chunkRect 3072 (by decide), P3⟩,
          ⟨chunkRect 2048 (by decide), P2⟩, ⟨chunkRect 1024 (by decide), P1⟩, ⟨chunkRect 0 (by decide), P0⟩] (ix1 n)
      = P2 (ix1 ⟨n.val - 2048, by omega⟩) := by
  have hr : n.val = 2048 + (⟨n.val - 2048, by omega⟩ : Fin 1024).val := by simp only []; omega
  refine (canon_skip (chunkRect 4096 (by decide)) _ _ (not_mem_chunk 4096 (by decide) n (by omega))).trans ?_
  refine (canon_skip (chunkRect 3072 (by decide)) _ _ (not_mem_chunk 3072 (by decide) n (by omega))).trans ?_
  refine (congrArg _ (emb_chunk 2048 (by decide) _ n hr).symm).trans ?_
  exact View.canon_cons_emb (chunkRect 2048 (by decide)) _ _ _

theorem pick1 (P4 P3 P2 P1 P0 : S1024.Idx → Elt Ideal .f32) (n : Fin 5120) (hlo : 1024 ≤ n.val) (hhi : n.val < 1024 + 1024) :
    View.canon (Val := Elt Ideal)
        [(⟨chunkRect 4096 (by decide), P4⟩ : View.Piece (Elt Ideal) S5120 .f32), ⟨chunkRect 3072 (by decide), P3⟩,
          ⟨chunkRect 2048 (by decide), P2⟩, ⟨chunkRect 1024 (by decide), P1⟩, ⟨chunkRect 0 (by decide), P0⟩] (ix1 n)
      = P1 (ix1 ⟨n.val - 1024, by omega⟩) := by
  have hr : n.val = 1024 + (⟨n.val - 1024, by omega⟩ : Fin 1024).val := by simp only []; omega
  refine (canon_skip (chunkRect 4096 (by decide)) _ _ (not_mem_chunk 4096 (by decide) n (by omega))).trans ?_
  refine (canon_skip (chunkRect 3072 (by decide)) _ _ (not_mem_chunk 3072 (by decide) n (by omega))).trans ?_
  refine (canon_skip (chunkRect 2048 (by decide)) _ _ (not_mem_chunk 2048 (by decide) n (by omega))).trans ?_
  refine (congrArg _ (emb_chunk 1024 (by decide) _ n hr).symm).trans ?_
  exact View.canon_cons_emb (chunkRect 1024 (by decide)) _ _ _

theorem pick0 (P4 P3 P2 P1 P0 : S1024.Idx → Elt Ideal .f32) (n : Fin 5120) (hlo : 0 ≤ n.val) (hhi : n.val < 0 + 1024) :
    View.canon (Val := Elt Ideal)
        [(⟨chunkRect 4096 (by decide), P4⟩ : View.Piece (Elt Ideal) S5120 .f32), ⟨chunkRect 3072 (by decide), P3⟩,
          ⟨chunkRect 2048 (by decide), P2⟩, ⟨chunkRect 1024 (by decide), P1⟩, ⟨chunkRect 0 (by decide), P0⟩] (ix1 n)
      = P0 (ix1 ⟨n.val - 0, by omega⟩) := by
  have hr : n.val = 0 + (⟨n.val - 0, by omega⟩ : Fin 1024).val := by simp only []; omega
  refine (canon_skip (chunkRect 4096 (by decide)) _ _ (not_mem_chunk 4096 (by decide) n (by omega))).trans ?_
  refine (canon_skip (chunkRect 3072 (by decide)) _ _ (not_mem_chunk 3072 (by decide) n (by omega))).trans ?_
  refine (canon_skip (chunkRect 2048 (by decide)) _ _ (not_mem_chunk 2048 (by decide) n (by omega))).trans ?_
  refine (canon_skip (chunkRect 1024 (by decide)) _ _ (not_mem_chunk 1024 (by decide) n (by omega))).trans ?_
  refine (congrArg _ (emb_chunk 0 (by decide) _ n hr).symm).trans ?_
  exact View.canon_cons_emb (chunkRect 0 (by decide)) _ _ _

/-- The output block as the body's five stores, last first: each chunk's result over its own rows of the packed
    codes and of the features, and over the two whole tables. -/
theorem out_eq_canon (c : Dev nD) (i : grid0.Coords) (arg1 : Memref sig .tc .vmem S5120 .i32) (harg1 : arg1.IsWhole) (arg2 : Memref sig .tc .vmem S5120 .f32) (harg2 : arg2.IsWhole) (arg3 : Memref sig .tc .vmem S800x50 .bf16) (harg3 : arg3.IsWhole) (arg4 : Memref sig .tc .vmem S800x50 .bf16) (harg4 : arg4.IsWhole) (arg5 : Memref sig .tc .vmem S5120 .f32) (harg5 : arg5.IsWhole)
    (x0 : Vec Ideal S5120 .i32) (x1 : Vec Ideal S5120 .f32) (x2 : Vec Ideal S800x50 .bf16) (x3 : Vec Ideal S800x50 .bf16) :
    out0_A_4 (F := Ideal) c i arg1 harg1 arg2 harg2 arg3 harg3 arg4 harg4 arg5 harg5 x0 x1 x2 x3
      = View.canon
        [⟨chunkRect 4096 (by decide), k0_pay1 (k0_pay17 (View.ld x1 (chunkRect 4096 (by decide)))) (k0_pay18 (View.ld x0 (chunkRect 4096 (by decide))) x2 x3)⟩,
         ⟨chunkRect 3072 (by decide), k0_pay16 (k0_pay12 (View.ld x1 (chunkRect 3072 (by decide)))) (k0_pay13 (View.ld x0 (chunkRect 3072 (by decide))))
            (k0_pay14 (View.ld x0 (chunkRect 3072 (by decide)))) (k0_pay15 (View.ld x0 (chunkRect 3072 (by decide))) x2) x3⟩,
         ⟨chunkRect 2048 (by decide), k0_pay10 (k0_pay7 (View.ld x1 (chunkRect 2048 (by decide)))) (k0_pay8 (View.ld x0 (chunkRect 2048 (by decide))))
            (k0_pay9 (View.ld x0 (chunkRect 2048 (by decide)))) x2 x3⟩,
         ⟨chunkRect 1024 (by decide), k0_pay5 (k0_pay3 (View.ld x0 (chunkRect 1024 (by decide)))) (k0_pay4 (View.ld x1 (chunkRect 1024 (by decide)))) x2 x3⟩,
         ⟨chunkRect 0 (by decide), k0_pay2 (View.ld x0 (chunkRect 0 (by decide))) (View.ld x1 (chunkRect 0 (by decide))) x2 x3⟩] := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  simp only [View.readAt_eq_ld, harg1.read_unread, harg2.read_unread, harg3.read_unread, harg4.read_unread,
    View.ld_unit_zero (S := S800x50) zero_off2]

/-- What the body leaves in the output block, at entry `n`: with the entry's packed code split into the label
    `a` and the column `k`, the two tables' entries at (k, a) added, times the entry's gathered feature. -/
theorem out_apply (c : Dev nD) (i : grid0.Coords) (arg1 : Memref sig .tc .vmem S5120 .i32) (harg1 : arg1.IsWhole) (arg2 : Memref sig .tc .vmem S5120 .f32) (harg2 : arg2.IsWhole) (arg3 : Memref sig .tc .vmem S800x50 .bf16) (harg3 : arg3.IsWhole) (arg4 : Memref sig .tc .vmem S800x50 .bf16) (harg4 : arg4.IsWhole) (arg5 : Memref sig .tc .vmem S5120 .f32) (harg5 : arg5.IsWhole)
    (x0 : Vec Ideal S5120 .i32) (x1 : Vec Ideal S5120 .f32) (x2 : Vec Ideal S800x50 .bf16) (x3 : Vec Ideal S800x50 .bf16)
    (n : Fin 5120) (a : Fin 50) (k : Fin 800)
    (hs : IntOp.shrsi .vector (x0 (ix1 n)) 10#32 = BitVec.ofNat 32 a.val)
    (hm : IntOp.andi (x0 (ix1 n)) 1023#32 = BitVec.ofNat 32 k.val) :
    out0_A_4 (F := Ideal) c i arg1 harg1 arg2 harg2 arg3 harg3 arg4 harg4 arg5 harg5 x0 x1 x2 x3 (ix1 n)
      = (x2 (ix2 k a) + x3 (ix2 k a)) * x1 (ix1 n) := by
  rw [out_eq_canon]
  by_cases h4 : 4096 ≤ n.val
  · have hr : n.val = 4096 + (⟨n.val - 4096, by omega⟩ : Fin 1024).val := by simp only []; omega
    refine (pick4 _ _ _ _ _ n h4 (by omega)).trans ?_
    refine (Chunk.pay_chunk4 _ _ _ _ _ a k ?_ ?_).trans ?_
    · rw [ld_chunk x0 4096 (by decide) _ n hr]; exact hs
    · rw [ld_chunk x0 4096 (by decide) _ n hr]; exact hm
    · rw [ld_chunk x1 4096 (by decide) _ n hr]
  by_cases h3 : 3072 ≤ n.val
  · have hr : n.val = 3072 + (⟨n.val - 3072, by omega⟩ : Fin 1024).val := by simp only []; omega
    refine (pick3 _ _ _ _ _ n h3 (by omega)).trans ?_
    refine (Chunk.pay_chunk3 _ _ _ _ _ a k ?_ ?_).trans ?_
    · rw [ld_chunk x0 3072 (by decide) _ n hr]; exact hs
    · rw [ld_chunk x0 3072 (by decide) _ n hr]; exact hm
    · rw [ld_chunk x1 3072 (by decide) _ n hr]
  by_cases h2 : 2048 ≤ n.val
  · have hr : n.val = 2048 + (⟨n.val - 2048, by omega⟩ : Fin 1024).val := by simp only []; omega
    refine (pick2 _ _ _ _ _ n h2 (by omega)).trans ?_
    refine (Chunk.pay_chunk2 _ _ _ _ _ a k ?_ ?_).trans ?_
    · rw [ld_chunk x0 2048 (by decide) _ n hr]; exact hs
    · rw [ld_chunk x0 2048 (by decide) _ n hr]; exact hm
    · rw [ld_chunk x1 2048 (by decide) _ n hr]
  by_cases h1 : 1024 ≤ n.val
  · have hr : n.val = 1024 + (⟨n.val - 1024, by omega⟩ : Fin 1024).val := by simp only []; omega
    refine (pick1 _ _ _ _ _ n h1 (by omega)).trans ?_
    refine (Chunk.pay_chunk1 _ _ _ _ _ a k ?_ ?_).trans ?_
    · rw [ld_chunk x0 1024 (by decide) _ n hr]; exact hs
    · rw [ld_chunk x0 1024 (by decide) _ n hr]; exact hm
    · rw [ld_chunk x1 1024 (by decide) _ n hr]
  have hr : n.val = 0 + (⟨n.val - 0, by omega⟩ : Fin 1024).val := by simp only []; omega
  refine (pick0 _ _ _ _ _ n (by omega) (by omega)).trans ?_
  refine (Chunk.pay_chunk0 _ _ _ _ _ a k ?_ ?_).trans ?_
  · rw [ld_chunk x0 0 (by decide) _ n hr]; exact hs
  · rw [ld_chunk x0 0 (by decide) _ n hr]; exact hm
  · rw [ld_chunk x1 0 (by decide) _ n hr]

end Cert.KernelIdeal.BlockValue
end
-- ==== Proof.Tables.lean ====
/-
  THE TWO WEIGHT TABLES AS FUNCTIONS OF THE FLAT WEIGHT ARRAY, AND WHERE FINITENESS IS USED.

  The 40000 weights are read as a `50 × 800` matrix in row-major order (entry `(a, k)` is weight `a * 800 + k`) and
  transposed to the `800 × 50` table `Wt`, so `Wt (k, a)` is weight `a * 800 + k`. The table is then split in two
  halves of the narrower format: `hi` is `Wt` narrowed, and `lo` is the narrowed remainder `Wt - widen hi`.

  At the exact-arithmetic values a float is an extended real and a change of format is the identity, so `hi = Wt`
  and `lo = Wt - Wt`, and the two halves add back to `Wt + (Wt - Wt)`. On the extended reals that is `Wt` exactly
  where the entry is FINITE: for a real `x`, `x + (x - x) = x + 0 = x`, whereas `⊤ - ⊤` is not `0`. This is the one
  place a finiteness hypothesis on the weights is used.
-/
import proofs.«413087_j81965155877382_3_alg».proof.KernelIdeal
import proofs.«413087_j81965155877382_3_alg».proof.Proof.Gen.KernelIdeal
import Idealize.ShloMosaic.PureOps.Ideal
import Idealize.ShloMosaic.Lib.Pipeline.Value
import Idealize.ShloMosaic.Lib.ValueLayout
import Idealize.ShloMosaic.Lib.ValueIdx

noncomputable section

namespace Cert.KernelIdeal.Tables

open Idealize.ShloMosaic Cert.KernelIdeal Idealize.ShloMosaic.ValueIdx
open Cert.KernelIdeal.Facts₀ Cert.KernelIdeal.Facts

variable {F : FTy → Type} [FloatOps F] [Cert.KernelIdeal.Facts]

/-- The weights as an `800 × 50` table: the flat array read as a `50 × 800` matrix in row-major order, transposed. -/
def Wt (W : FVec F S40000 .f32) : FVec F S800x50 .f32 :=
  transpose S800x50 [1, 0] (shapeCast S50x800 W shapeCasts_S40000_S50x800) transposes_S50x800_S800x50_1_0

/-- The table's high half: the table narrowed. -/
def hiT (W : FVec F S40000 .f32) : FVec F S800x50 .bf16 := truncf .bf16 (Wt W) bitsLt_bf16_f32

/-- The table's low half: what the high half, widened back, leaves of the table, narrowed. -/
def loT (W : FVec F S40000 .f32) : FVec F S800x50 .bf16 :=
  truncf .bf16 (subf (Wt W) (extf .f32 (truncf .bf16 (Wt W) bitsLt_bf16_f32) bitsLt_bf16_f32)) bitsLt_bf16_f32

/-- The table's entry `(k, a)` is weight `a * 800 + k`: the transpose reads the `50 × 800` matrix at `(a, k)`, whose
    row-major position that is. -/
theorem Wt_apply (W : FVec F S40000 .f32) (k : Fin 800) (a : Fin 50) :
    Wt W (ix2 k a) = W (ix1 ⟨a.val * 800 + k.val, by have := a.isLt; have := k.isLt; omega⟩) := by
  unfold Wt
  rw [transpose_ix2_apply]
  exact shapeCast_apply W _ (ix2 a k) (ix1 ⟨a.val * 800 + k.val, by have := a.isLt; have := k.isLt; omega⟩) (by
    rw [Shape.rowMajor_val_one, Shape.rowMajor_val_two]
    rfl)

/-- Where every weight is finite the two halves add back to the weight: `x + (x - x) = x` for a real `x`. -/
theorem hi_add_lo (W : FVec Ideal S40000 .f32) (hW : ∀ i, ∃ r : ℝ, W i = (r : EReal)) (k : Fin 800) (a : Fin 50) :
    hiT (F := Ideal) W (ix2 k a) + loT (F := Ideal) W (ix2 k a)
      = W (ix1 ⟨a.val * 800 + k.val, by have := a.isLt; have := k.isLt; omega⟩) := by
  obtain ⟨x, hx⟩ := hW (ix1 ⟨a.val * 800 + k.val, by have := a.isLt; have := k.isLt; omega⟩)
  show Wt (F := Ideal) W (ix2 k a) + (Wt (F := Ideal) W (ix2 k a) - Wt (F := Ideal) W (ix2 k a)) = _
  rw [Wt_apply, hx, ← EReal.coe_sub, sub_self, EReal.coe_zero, add_zero]

end Cert.KernelIdeal.Tables

end
-- ==== Proof.HostPrefix.lean ====
/-
  What the host operations before the kernel's launch leave in the four arrays the launch reads, as functions of the
  argument arrays. The edge-code array holds, at each edge, the packed word `row * 1024 + column` (row the label of
  the edge's first endpoint, column the label of its second endpoint times 16 plus its property); the feature array
  holds the feature of each edge's second endpoint; the two table arrays hold the high and the low half of the
  `800 × 50` weight table. Each array is the composition of the operations that wrote it, read off the list of
  operations one result at a time; the edge code and the features are then the same functions the reference's
  arithmetic is spelled with, because the two programs' shapes and dimension records are the same data.
-/
import proofs.«413087_j81965155877382_3_alg».proof.Proof.Gen.KernelIdeal.Frame
import proofs.«413087_j81965155877382_3_alg».proof.Proof.Gen.ReferenceIdeal
import proofs.«413087_j81965155877382_3_alg».proof.Proof.Spec
import proofs.«413087_j81965155877382_3_alg».proof.Proof.Tables
import Idealize.ShloMosaic.Lib.StableHlo.Run
import Idealize.ShloMosaic.Lib.Pipeline.Value
import Idealize.ShloMosaic.Lib.ValueIdx

set_option maxRecDepth 16384

noncomputable section

namespace Cert.KernelIdeal.HostPrefix

open Idealize.ShloMosaic Idealize.ShloMosaic.TcCoe Idealize.ShloMosaic.StableHlo
open Idealize.SL Idealize.SL.Sem
open Cert.KernelIdeal Cert.KernelIdeal.Gen Idealize.ShloMosaic.ValueIdx

/-! ## The two programs' vocabulary is the same data -/

/-- The two programs' dimension records of the take from a table of 500000 rows have the same fields. -/
theorem gather_rec_eq : Cert.KernelIdeal.gather_S500000_S16000000x1_S16000000_n_0_n_n_0_1_1
    = Cert.ReferenceIdeal.gather_S500000_S16000000x1_S16000000_n_0_n_n_0_1_1 := rfl

/-- The column of start indices, negative positions wrapped by `n`, in this program's spelling. -/
theorem wrap_eq (n : BitVec 32) (idx : IVec S16000000 32) :
    broadcastInDim S16000000x1 ![0] bcast_S16000000_S16000000x1_0
        (select (cmpi CmpIPredicate.slt idx (broadcastInDim S16000000 ![] bcast_S_S16000000 (constantI S_ 32 0#32)))
          (addi idx (broadcastInDim S16000000 ![] bcast_S_S16000000 (constantI S_ 32 n))) idx)
      = Cert.Proof.Spec.wrapCol n idx := rfl

/-- The label of each edge's endpoint, in this program's spelling. -/
theorem label_eq (label : IVec S500000 32) (ends : IVec S16000000 32) :
    Host.gather gather_S500000_S16000000x1_S16000000_n_0_n_n_0_1_1 label (Cert.Proof.Spec.wrapCol 500000#32 ends)
      = Cert.Proof.Spec.labelOf label ends := by
  unfold Cert.Proof.Spec.labelOf
  rw [gather_rec_eq]

/-- The feature of each edge's endpoint, in this program's spelling. -/
theorem feat_eq (x : FVec Ideal S500000 .f32) (ends : IVec S16000000 32) :
    Host.gather gather_S500000_S16000000x1_S16000000_n_0_n_n_0_1_1 x
        (broadcastInDim S16000000x1 ![0] bcast_S16000000_S16000000x1_0
          (select (cmpi CmpIPredicate.slt ends (broadcastInDim S16000000 ![] bcast_S_S16000000 (constantI S_ 32 0#32)))
            (addi ends (broadcastInDim S16000000 ![] bcast_S_S16000000 (constantI S_ 32 500000#32))) ends))
      = Cert.Proof.Spec.featOf (F := Ideal) x ends := by
  rw [wrap_eq]
  unfold Cert.Proof.Spec.featOf
  rw [gather_rec_eq]

/-- The packed edge code, in this program's spelling. -/
theorem code_eq (label : IVec S500000 32) (src dst prop : IVec S16000000 32) :
    addi
      (muli
        (Host.gather gather_S500000_S16000000x1_S16000000_n_0_n_n_0_1_1 label
          (broadcastInDim S16000000x1 ![0] bcast_S16000000_S16000000x1_0
            (select
              (cmpi CmpIPredicate.slt src (broadcastInDim S16000000 ![] bcast_S_S16000000 (constantI S_ 32 0#32)))
              (addi src (broadcastInDim S16000000 ![] bcast_S_S16000000 (constantI S_ 32 500000#32)))
              src)))
        (broadcastInDim S16000000 ![] bcast_S_S16000000 (constantI S_ 32 1024#32)))
      (addi
        (muli
          (Host.gather gather_S500000_S16000000x1_S16000000_n_0_n_n_0_1_1 label
            (broadcastInDim S16000000x1 ![0] bcast_S16000000_S16000000x1_0
              (select
                (cmpi CmpIPredicate.slt dst (broadcastInDim S16000000 ![] bcast_S_S16000000 (constantI S_ 32 0#32)))
                (addi dst (broadcastInDim S16000000 ![] bcast_S_S16000000 (constantI S_ 32 500000#32)))
                dst)))
          (broadcastInDim S16000000 ![] bcast_S_S16000000 (constantI S_ 32 16#32)))
        prop)
    = Cert.Proof.Spec.codeOf label src dst prop := by
  rw [wrap_eq, wrap_eq, label_eq, label_eq]
  rfl

/-! ## The four arrays the launch reads -/

variable (m : (ℓ : Loc nD τ sig) → Buf (Elt Ideal) ℓ)

set_option maxHeartbeats 1000000 in
/-- The edge-code array holds the packed code of the labels and the properties. -/
theorem V_code (c : Dev nD) : (V m c main_v26 : S16000000.Idx → BitVec 32)
    = Cert.Proof.Spec.codeOf (m ((c : Thread nD τ).loc main_arg3)) (m ((c : Thread nD τ).loc main_arg4)) (m ((c : Thread nD τ).loc main_arg5)) (m ((c : Thread nD τ).loc main_arg6)) := by
  show StableHlo.after hostOps0 (fun b => m (c, b)) (Proc.devRef .tc main_v26) = _
  after_results_simp
  exact code_eq _ _ _ _

set_option maxHeartbeats 1000000 in
/-- The feature array holds the feature of each edge's second endpoint. -/
theorem V_feat (c : Dev nD) : (V m c main_v20 : S16000000.Idx → EReal)
    = Cert.Proof.Spec.featOf (F := Ideal) (m ((c : Thread nD τ).loc main_arg0)) (m ((c : Thread nD τ).loc main_arg5)) := by
  show StableHlo.after hostOps0 (fun b => m (c, b)) (Proc.devRef .tc main_v20) = _
  after_results_simp
  exact feat_eq _ _

set_option maxHeartbeats 1000000 in
/-- The first table array holds the high half of the weight table. -/
theorem V_hi (c : Dev nD) : (V m c main_v29 : S800x50.Idx → EReal) = Cert.KernelIdeal.Tables.hiT (F := Ideal) (m ((c : Thread nD τ).loc main_arg1)) := by
  show StableHlo.after hostOps0 (fun b => m (c, b)) (Proc.devRef .tc main_v29) = _
  after_results_simp
  rfl

set_option maxHeartbeats 1000000 in
/-- The second table array holds the low half of the weight table. -/
theorem V_lo (c : Dev nD) : (V m c main_v32 : S800x50.Idx → EReal) = Cert.KernelIdeal.Tables.loT (F := Ideal) (m ((c : Thread nD τ).loc main_arg1)) := by
  show StableHlo.after hostOps0 (fun b => m (c, b)) (Proc.devRef .tc main_v32) = _
  after_results_simp
  rfl

end Cert.KernelIdeal.HostPrefix

end
-- ==== Proof.MsgArray.lean ====
import proofs.«413087_j81965155877382_3_alg».proof.Proof.Gen.KernelIdeal.Frame
import proofs.«413087_j81965155877382_3_alg».proof.Proof.Gen.ReferenceIdeal
import proofs.«413087_j81965155877382_3_alg».proof.Proof.BlockValue
import proofs.«413087_j81965155877382_3_alg».proof.Proof.Tables
import proofs.«413087_j81965155877382_3_alg».proof.Proof.Spec
import proofs.«413087_j81965155877382_3_alg».proof.Proof.RefValue
import proofs.«413087_j81965155877382_3_alg».proof.Proof.HostPrefix
import Idealize.ShloMosaic.Lib.Pipeline.Value
import Idealize.ShloMosaic.Lib.ValueIdx

set_option maxRecDepth 16384

noncomputable section

/-! The array of messages the pallas_call leaves. Grid point `t` reads block `t` (5120 consecutive edges) of the
    packed codes and of the gathered features, and both whole weight tables, and writes block `t` of the result;
    the 3125 blocks tile the 16,000,000 edges. Entry by entry the block is the reference's message: the packed code
    splits into the row `a` and the column `k` of the edge's weight, the two tables add up to the weight there
    (this is where the weights' finiteness is used), and the feature is the same gathered feature. -/
namespace Cert.KernelIdeal.MsgArray

open Idealize.ShloMosaic Idealize.ShloMosaic.TcCoe
open Idealize.SL Idealize.SL.Sem
open Idealize.ShloMosaic.Pipeline (Dat Cfg Window)
open Cert.KernelIdeal Cert.KernelIdeal.Gen Idealize.ShloMosaic.ValueIdx

variable (m : (ℓ : Loc nD τ sig) → Buf (Elt Ideal) ℓ)

/-- The argument arrays, at their literal types. -/
abbrev xA (c : Dev nD) : FVec Ideal S500000 .f32 := m ((c : Thread nD τ).loc main_arg0)
abbrev wA (c : Dev nD) : FVec Ideal S40000 .f32 := m ((c : Thread nD τ).loc main_arg1)
abbrev labelA (c : Dev nD) : IVec S500000 32 := m ((c : Thread nD τ).loc main_arg3)
abbrev srcA (c : Dev nD) : IVec S16000000 32 := m ((c : Thread nD τ).loc main_arg4)
abbrev dstA (c : Dev nD) : IVec S16000000 32 := m ((c : Thread nD τ).loc main_arg5)
abbrev propA (c : Dev nD) : IVec S16000000 32 := m ((c : Thread nD τ).loc main_arg6)

/-- The messages, as the reference spells them. -/
abbrev msgs (c : Dev nD) : S16000000.Idx → EReal :=
  Cert.Proof.Spec.refMsgs (F := Ideal) (xA m c) (wA m c) (labelA m c) (srcA m c) (dstA m c) (propA m c)

/-- The printed index maps over the grid: the three edge windows sit at block `t`, the two tables at block (0, 0). -/
theorem idx_facts : ∀ t : Fin cfg0.N, win0_0.index t (0 : Fin 1) = t.val ∧ win0_1.index t (0 : Fin 1) = t.val
    ∧ win0_4.index t (0 : Fin 1) = t.val
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Edge `t * 5120 + n`. -/
abbrev edge (t : Fin cfg0.N) (n : Fin 5120) : Fin 16000000 :=
  ⟨t.val * 5120 + n.val, by have := t.isLt; have hN : cfg0.N = 3125 := N_0; have := n.isLt; omega⟩

/-- Entry `n` of block `t` of the packed codes is edge `t * 5120 + n`'s code. -/
theorem code_blk (c : Dev nD) (t : Fin cfg0.N) (n : Fin 5120) :
    iblk m c 0 t (ix1 n) = (V m c main_v26 : S16000000.Idx → BitVec 32) (ix1 (edge t n)) := by
  show V m c main_v26 (((cfg0.win 0).blk t).view.emb (ix1 n)) = V m c main_v26 (ix1 (edge t n))
  refine congrArg (V m c main_v26) (funext fun a => Fin.ext ?_)
  obtain ⟨e0, -⟩ := idx_facts t
  match a with
  | ⟨0, _⟩ => show win0_0.index t (0 : Fin 1) * 5120 + 1 * n.val = t.val * 5120 + n.val; rw [e0]; omega

/-- Likewise of the gathered features. -/
theorem feat_blk (c : Dev nD) (t : Fin cfg0.N) (n : Fin 5120) :
    iblk m c 1 t (ix1 n) = (V m c main_v20 : S16000000.Idx → EReal) (ix1 (edge t n)) := by
  show V m c main_v20 (((cfg0.win 1).blk t).view.emb (ix1 n)) = V m c main_v20 (ix1 (edge t n))
  refine congrArg (V m c main_v20) (funext fun a => Fin.ext ?_)
  obtain ⟨-, e1, -⟩ := idx_facts t
  match a with
  | ⟨0, _⟩ => show win0_1.index t (0 : Fin 1) * 5120 + 1 * n.val = t.val * 5120 + n.val; rw [e1]; omega

/-- Every point reads the whole first table. -/
theorem hi_blk (c : Dev nD) (t : Fin cfg0.N) (k : Fin 800) (a : Fin 50) :
    iblk m c 2 t (ix2 k a) = (V m c main_v29 : S800x50.Idx → EReal) (ix2 k a) := by
  show V m c main_v29 (((cfg0.win 2).blk t).view.emb (ix2 k a)) = V m c main_v29 (ix2 k a)
  refine congrArg (V m c main_v29) (funext fun d => Fin.ext ?_)
  obtain ⟨-, -, -, e0, e1, -⟩ := idx_facts t
  match d with
  | ⟨0, _⟩ => show win0_2.index t (0 : Fin 2) * 800 + 1 * k.val = k.val; rw [e0]; omega
  | ⟨1, _⟩ => show win0_2.index t (1 : Fin 2) * 50 + 1 * a.val = a.val; rw [e1]; omega

/-- and the whole second table. -/
theorem lo_blk (c : Dev nD) (t : Fin cfg0.N) (k : Fin 800) (a : Fin 50) :
    iblk m c 3 t (ix2 k a) = (V m c main_v32 : S800x50.Idx → EReal) (ix2 k a) := by
  show V m c main_v32 (((cfg0.win 3).blk t).view.emb (ix2 k a)) = V m c main_v32 (ix2 k a)
  refine congrArg (V m c main_v32) (funext fun d => Fin.ext ?_)
  obtain ⟨-, -, -, -, -, e0, e1⟩ := idx_facts t
  match d with
  | ⟨0, _⟩ => show win0_3.index t (0 : Fin 2) * 800 + 1 * k.val = k.val; rw [e0]; omega
  | ⟨1, _⟩ => show win0_3.index t (1 : Fin 2) * 50 + 1 * a.val = a.val; rw [e1]; omega

/-- Entry `n` of the result's block `t` is entry `t * 5120 + n` of the result. -/
theorem out_emb (t : Fin cfg0.N) (n : Fin 5120) :
    ((cfg0.win 4).blk t).view.emb (ix1 n) = (ix1 (edge t n) : S16000000.Idx) := by
  funext a
  obtain ⟨-, -, e4, -⟩ := idx_facts t
  match a with
  | ⟨0, _⟩ => exact Fin.ext (by show win0_4.index t (0 : Fin 1) * 5120 + 1 * n.val = t.val * 5120 + n.val; rw [e4]; omega)

/-- WHAT POINT `t` WRITES BACK is block `t` of the messages. -/
theorem flushed_eq (c : Dev nD) (hW : ∀ i, ∃ r : ℝ, wA m c i = (r : EReal)) (hlabel : ∀ i, (labelA m c i).toNat < 50)
    (hprop : ∀ e, (propA m c e).toNat < 16) (t : Fin cfg0.N) :
    (dats m 0 c).flushed 4 t = ((cfg0.win 4).blk t).view.read (Elt Ideal) (msgs m c) := by
  show (cfg0.win 4).cut (grid0.coords t) ((dats m 0 c).after 4 t) = _
  rw [after0_4]
  unfold outsAt0
  funext j
  obtain ⟨n, rfl⟩ : ∃ n : Fin 5120, j = ix1 n := ⟨j 0, eq_ix1 j⟩
  show out0_A_4 (F := Ideal) c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (ix1 n)
    = msgs m c (((cfg0.win 4).blk t).view.emb (ix1 n))
  rw [out_emb]
  obtain ⟨a, k, hs, hm, href⟩ := Cert.Proof.RefValue.edge_coords (labelA m c) (srcA m c) (dstA m c) (propA m c) hlabel hprop (edge t n)
  refine Eq.trans ?_ (href (xA m c) (wA m c)).symm
  refine (BlockValue.out_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) n a k ?_ ?_).trans ?_
  · rw [code_blk, HostPrefix.V_code]; exact hs
  · rw [code_blk, HostPrefix.V_code]; exact hm
  · rw [hi_blk, lo_blk, feat_blk, HostPrefix.V_hi, HostPrefix.V_lo, HostPrefix.V_feat, Tables.hi_add_lo _ hW k a]

/-- An entry of the result is in point `t`'s block iff it lies in `[t * 5120, t * 5120 + 5120)`. -/
theorem mem_blk (t : Fin cfg0.N) (i : S16000000.Idx) :
    i ∈ ((cfg0.win 4).blk t).view.set ↔ ∀ a : Fin 1, win0_4.index t a * S5120.size a ≤ (i a).val ∧ (i a).val < win0_4.index t a * S5120.size a + S5120.size a := by
  show i ∈ ((View.whole main_v33).slice (win0_4.rect t)).set ↔ _
  rw [View.set_slice_whole, Rect.mem_set_unit]
  exact Iff.rfl

/-- THE ARRAY after the run: the messages. -/
theorem final (c : Dev nD) (hW : ∀ i, ∃ r : ℝ, wA m c i = (r : EReal)) (hlabel : ∀ i, (labelA m c i).toNat < 50)
    (hprop : ∀ e, (propA m c e).toNat < 16) :
    (dats m 0 c).arrAt 4 cfg0.N = msgs m c := by
  refine (dats m 0 c).arrAt_eq_of_cover 4 (msgs m c) (fun t _ => flushed_eq m c hW hlabel hprop t) (fun i => ?_)
  have hi : (i 0).val < 16000000 := (i 0).isLt
  have hN : cfg0.N = 3125 := N_0
  refine ⟨⟨(i 0).val / 5120, by omega⟩, flush0_4 _, ?_⟩
  rw [mem_blk]
  intro a
  obtain ⟨-, -, e4, -⟩ := idx_facts ⟨(i 0).val / 5120, by omega⟩
  match a with
  | ⟨0, _⟩ =>
    show win0_4.index _ (0 : Fin 1) * 5120 ≤ (i 0).val ∧ (i 0).val < win0_4.index _ (0 : Fin 1) * 5120 + 5120
    rw [e4]
    show (i 0).val / 5120 * 5120 ≤ (i 0).val ∧ (i 0).val < (i 0).val / 5120 * 5120 + 5120
    omega

end Cert.KernelIdeal.MsgArray
end
-- ==== Proof.KernelTail.lean ====
/-
  THE OPERATIONS AFTER THE REGION, AS A FUNCTION OF WHAT THEY READ.

  After the region the program makes a zero vector over the nodes, views the edges' source nodes as a column of
  start indices, adds each edge's message (the region's result array) into its source node, wraps negative node
  labels by the number of labels, takes each node's label's bias, and adds the two. The final value of the result
  buffer is these operations composed, run over the memory the region leaves: the region's output array as the region
  left it, every other buffer as the region found it. Of the buffers the operations read, the messages are the
  region's output array; the bias, the labels and the source nodes are no array of the region and are written by no
  operation before it, so they are read as launched.

  The composed term is then the common tail both programs end with. The two programs spell it with their own names
  for the same shapes, dimension records and side conditions; the shapes abbreviate the same literals, the records
  have the same fields, and the side conditions are proofs, so the two spellings are one term. The identification is
  made once, over abstract arrays, record by record.
-/
import proofs.«413087_j81965155877382_3_alg».proof.Proof.Gen.KernelIdeal.Frame
import proofs.«413087_j81965155877382_3_alg».proof.Proof.Gen.ReferenceIdeal
import proofs.«413087_j81965155877382_3_alg».proof.Proof.Spec
import Idealize.ShloMosaic.Lib.StableHlo.Run
import Idealize.ShloMosaic.Lib.Pipeline.Value
import Idealize.ShloMosaic.PureOps.Ideal

set_option maxRecDepth 16384

noncomputable section

namespace Cert.KernelIdeal.KernelTail

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ)

/-! ## The two programs' dimension records are the same data -/

/-- The scatter-add's dimension numbers: one record, spelled once by each program. -/
theorem scatter_rec_eq : Cert.KernelIdeal.scatter_S500000_S16000000x1_S16000000_n_0_0_1
    = Cert.ReferenceIdeal.scatter_S500000_S16000000x1_S16000000_n_0_0_1 := rfl

/-- The bias gather's dimension numbers likewise. -/
theorem gather_rec_eq : Cert.KernelIdeal.gather_S50_S500000x1_S500000_n_0_n_n_0_1_1
    = Cert.ReferenceIdeal.gather_S50_S500000x1_S500000_n_0_n_n_0_1_1 := rfl

/-- The operations after the region composed, in this program's spelling over abstract arrays, are the common tail:
    the two programs' shapes and dimension records are the same data. -/
theorem tail_spelling_eq (bias : FVec Ideal S50 .f32) (label : IVec S500000 32) (src : IVec S16000000 32)
    (msgs : FVec Ideal S16000000 .f32) :
    addf
        (Host.scatterAdd scatter_S500000_S16000000x1_S16000000_n_0_0_1
          (broadcastInDim S500000 ![] bcast_S_S500000 (constant (F := Ideal) S_ .f32 0x00000000#32))
          (broadcastInDim S16000000x1 ![0] bcast_S16000000_S16000000x1_0 src) msgs)
        (Host.gather gather_S50_S500000x1_S500000_n_0_n_n_0_1_1 bias
          (broadcastInDim S500000x1 ![0] bcast_S500000_S500000x1_0
            (select (cmpi CmpIPredicate.slt label (broadcastInDim S500000 ![] bcast_S_S500000 (constantI S_ 32 0#32)))
              (addi label (broadcastInDim S500000 ![] bcast_S_S500000 (constantI S_ 32 50#32))) label)))
      = Cert.Proof.Spec.tail (F := Ideal) bias label src msgs := by
  unfold Cert.Proof.Spec.tail
  rw [scatter_rec_eq, gather_rec_eq]

/-! ## What the operations after the region read -/

/-- The region's result array is window 4's, as the region left it. -/
theorem read_result (c : Dev nD) :
    Pipeline.withArrays (cfgs 0).spec c (V0 m c) (fun w => (dats m 0 c).arrAt w (cfgs 0).N) (Proc.devRef .tc main_v33)
      = (dats m 0 c).arrAt 4 cfg0.N :=
  Pipeline.withArrays_arr spec0 launch0.win.arr_inj c _ _ 4

/-- The bias is no window's array and no operation before the region writes it: it is read as launched. -/
theorem read_bias (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- The node labels likewise. -/
theorem read_label (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-- The edges' source nodes likewise. -/
theorem read_src (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans
    (V_main_arg4 m c)

/-! ## The operations after the region -/

set_option maxHeartbeats 1000000 in
/-- After the region the program sums the region's result into the edges' source nodes and adds each node's label's
    bias: the common tail, over the bias, labels and source nodes as launched and the result array as the region left it. -/
theorem tail_eq (c : Dev nD) :
    (Pipeline.afterTail₀ cfgs (dats m) 0 (V0 m) [hostOps1] c main_v44 : S500000.Idx → EReal)
      = Cert.Proof.Spec.tail (F := Ideal) (m ((c : Thread nD τ).loc main_arg2)) (m ((c : Thread nD τ).loc main_arg3))
          (m ((c : Thread nD τ).loc main_arg4)) ((dats m 0 c).arrAt 4 cfg0.N) := by
  unfold Pipeline.afterTail₀
  show StableHlo.after hostOps1 _ (Proc.devRef .tc main_v44) = _
  after_results_simp
  rw [read_result m c, read_bias m c, read_label m c, read_src m c]
  exact tail_spelling_eq _ _ _ _

end Cert.KernelIdeal.KernelTail

end
-- ==== Proof.lean ====
/-
  The kernel and its reference compute, for every node, the sum over the edges leaving it of
  `W[row, column] * x[dst]` plus the bias of the node's label, where an edge's row is the label of its source
  and its column the label of its destination times 16 plus its property.

  The reference reads the weight by the flat index `(row * 50 + label dst) * 16 + property`. The kernel packs
  `row * 1024 + column` into one word, unpacks it by a shift and a mask, and selects the weight with two one-hot
  vectors: a product of the one-hot of the column with the transposed table (split in two halves whose sum is
  the table, over finite weights), then a masked sum over the 50 rows. With labels in `[0, 50)` and properties
  in `[0, 16)` the column is below 800 < 1024, the word unpacks to (row, column), both one-hots hit, and the
  selected weight is the reference's. The gathered feature, the sum into the source nodes and the bias are the
  same operations in both programs.

  The pieces: the packed-code arithmetic and what the precondition says (PackedCode, Domain); both host sides as
  pure functions and the reference's message per edge (Spec, RefValue); one chunk of the kernel's body at a row
  (Chunk), the block a grid point writes (BlockValue), the tables (Tables), the host values the call reads
  (HostPrefix), the whole array of messages (MsgArray) and the host tail (KernelTail). Here: the kernel's run
  re-posted with its result named, and the five claims.
-/
import proofs.«413087_j81965155877382_3_alg».proof.Defs
import proofs.«413087_j81965155877382_3_alg».proof.Proof.Gen.Kernel
import proofs.«413087_j81965155877382_3_alg».proof.Proof.Gen.Kernel.Skeleton
import proofs.«413087_j81965155877382_3_alg».proof.Proof.Gen.Kernel.Launch
import proofs.«413087_j81965155877382_3_alg».proof.Proof.Gen.Kernel.Points
import proofs.«413087_j81965155877382_3_alg».proof.Proof.Gen.Kernel.Frame
import proofs.«413087_j81965155877382_3_alg».proof.Proof.Gen.KernelIdeal
import proofs.«413087_j81965155877382_3_alg».proof.Proof.Gen.KernelIdeal.Skeleton
import proofs.«413087_j81965155877382_3_alg».proof.Proof.Gen.KernelIdeal.Launch
import proofs.«413087_j81965155877382_3_alg».proof.Proof.Gen.KernelIdeal.Points
import proofs.«413087_j81965155877382_3_alg».proof.Proof.Gen.KernelIdeal.Frame
import proofs.«413087_j81965155877382_3_alg».proof.Proof.Gen.ReferenceIdeal
import proofs.«413087_j81965155877382_3_alg».proof.Proof.Gen.ReferenceIdeal.Run
import proofs.«413087_j81965155877382_3_alg».proof.Proof.Gen.Pre_finite_inputs
import proofs.«413087_j81965155877382_3_alg».proof.Proof.Domain
import proofs.«413087_j81965155877382_3_alg».proof.Proof.RefValue
import proofs.«413087_j81965155877382_3_alg».proof.Proof.MsgArray
import proofs.«413087_j81965155877382_3_alg».proof.Proof.KernelTail
import Idealize.ShloMosaic.Adequacy
import Idealize.ShloMosaic.Init

set_option maxRecDepth 16384

noncomputable section

namespace Cert.Proof

open Idealize.ShloMosaic Idealize.ShloMosaic.TcCoe Idealize.SL.Sem

/-- What the precondition gives at the kernel's memory: finite weights, labels below 50, properties below 16. -/
theorem pre_facts (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, Cert.KernelIdeal.MsgArray.wA m c i = (r : EReal))
      ∧ (∀ i, (Cert.KernelIdeal.MsgArray.labelA m c i).toNat < 50)
      ∧ (∀ e, (Cert.KernelIdeal.MsgArray.propA m c e).toNat < 16) :=
  Cert.Proof.Domain.of_pre _ _ _ _ _ _ _ (hpre c)

/-- The kernel's result: the common tail of the messages. -/
abbrev result (m : (ℓ : Loc Cert.KernelIdeal.nD Cert.KernelIdeal.τ Cert.KernelIdeal.sig) → Buf (Elt Ideal) ℓ)
    (c : Dev Cert.KernelIdeal.nD) : Cert.KernelIdeal.S500000.Idx → EReal :=
  Cert.Proof.Spec.tail (F := Ideal) (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (Cert.KernelIdeal.MsgArray.msgs m c)

section KernelRun
open Cert.KernelIdeal Cert.KernelIdeal.Gen

/-- The kernel's run, its result named: the host tail over the array of messages the region leaves. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(((h c).2 main_v44 (Pipeline.mem_restRefs_of main_v44 (by decide) (by decide))).trans
        ((Cert.KernelIdeal.KernelTail.tail_eq m c).trans
          (congrArg (Cert.Proof.Spec.tail (F := Ideal) _ _ _)
            (Cert.KernelIdeal.MsgArray.final m c (pre_facts m hpre c).1 (pre_facts m hpre c).2.1 (pre_facts m hpre c).2.2)))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end KernelRun

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the common tail of the same messages. -/
theorem algebraic : Cert.algebraic_KernelIdeal_ReferenceIdeal := by
  intro m ρ m' ρ' hpre hagree
  refine ⟨fun c => result m c, kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.Proof.RefValue.res_eq, (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
